-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x600000 : Shape := ⟨2, ![2, 600000]⟩
abbrev S100000x300 : Shape := ⟨2, ![100000, 300]⟩
abbrev S300x128 : Shape := ⟨2, ![300, 128]⟩
abbrev S128 : Shape := ⟨1, ![128]⟩
abbrev S128x64 : Shape := ⟨2, ![128, 64]⟩
abbrev S64 : Shape := ⟨1, ![64]⟩
abbrev S64x6 : Shape := ⟨2, ![64, 6]⟩
abbrev S6 : Shape := ⟨1, ![6]⟩
abbrev S_ : Shape := ⟨0, ![]⟩

class Facts : Prop where
  bcast_S_S100000x300 : S_.BroadcastsInDim S100000x300 (![] : Fin 0 → Fin S100000x300.rank)
  reducesTo_S100000x300_S_d0_1 : S100000x300.ReducesTo [0, 1] S_
  h_S_ : 0 < S_.numel
  bcast_S_S300x128 : S_.BroadcastsInDim S300x128 (![] : Fin 0 → Fin S300x128.rank)
  reducesTo_S300x128_S_d0_1 : S300x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg7 : FVec F S64 .f32) (main_arg8 : FVec F S64x6 .f32) (main_arg9 : FVec F S6 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x6 .f32 := Host.absf main_arg8
  let main_cst_8 : FVec F S_ .f32 := constant S_ .f32 0x7F800000#32
  let main_v25 : FVec F S64x6 .f32 := broadcastInDim S64x6 ![] bcast_S_S64x6 main_cst_8
  let main_v26 : IVec S64x6 1 := cmpf .olt main_v24 main_v25
  let main_c_9 : IVec S_ 1 := constantI S_ 1 1#1
  let main_v27 : IVec S_ 1 := (fun x v => Host.reduce IntOp.andi x v reducesTo_S64x6_S_d0_1 h_S_) main_v26 main_c_9
  let main_v28 : IVec S_ 1 := andi main_v23 main_v27
  let main_v29 : FVec F S6 .f32 := Host.absf main_arg9
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  main_v33

def fn {F : FTy → Type} [FloatOps F] (main_arg0 : IVec S100000 32) (main_arg1 : IVec S2x600000 32) (main_arg2 : IVec S100000 32) (main_arg3 : FVec F S100000x300 .f32) (main_arg4 : FVec F S300x128 .f32) (main_arg5 : FVec F S128 .f32) (main_arg6 : FVec F S128x64 .f32) (main_arg7 : FVec F S64 .f32) (main_arg8 : FVec F S64x6 .f32) (main_arg9 : FVec F S6 .f32) : IVec S_ 1 :=
  let main_v0 : FVec F S100000x300 .f32 := Host.absf main_arg3
  let main_cst : FVec F S_ .f32 := constant S_ .f32 0x7F800000#32
  let main_v1 : FVec F S100000x300 .f32 := broadcastInDim S100000x300 ![] bcast_S_S100000x300 main_cst
  let main_v2 : IVec S100000x300 1 := cmpf .olt main_v0 main_v1
  let main_c : IVec S_ 1 := constantI S_ 1 1#1
  let main_v3 : IVec S_ 1 := (fun x v => Host.reduce IntOp.andi x v reducesTo_S100000x300_S_d0_1 h_S_) main_v2 main_c
  let main_v4 : FVec F S300x128 .f32 := Host.absf main_arg4
  let main_cst_0 : FVec F S_ .f32 := constant S_ .f32 0x7F800000#32
  let main_v5 : FVec F S300x128 .f32 := broadcastInDim S300x128 ![] bcast_S_S300x128 main_cst_0
  let main_v6 : IVec S300x128 1 := cmpf .olt main_v4 main_v5
  let main_c_1 : IVec S_ 1 := constantI S_ 1 1#1
  let main_v7 : IVec S_ 1 := (fun x v => Host.reduce IntOp.andi x v reducesTo_S300x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg7 main_arg8 main_arg9 main_v13 main_v16
-- ==== Kernel.lean ====
abbrev S100000 : Shape := ⟨1, ![100000]⟩
abbrev S2x600000 : Shape := ⟨2, ![2, 600000]⟩
abbrev S100000x300 : Shape := ⟨2, ![100000, 300]⟩
abbrev S300x128 : Shape := ⟨2, ![300, 128]⟩
abbrev S128 : Shape := ⟨1, ![128]⟩
abbrev S128x64 : Shape := ⟨2, ![128, 64]⟩
abbrev S64 : Shape := ⟨1, ![64]⟩
abbrev S64x6 : Shape := ⟨2, ![64, 6]⟩
abbrev S6 : Shape := ⟨1, ![6]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x1 : Shape := ⟨2, ![100000, 1]⟩
abbrev S100000x128 : Shape := ⟨2, ![100000, 128]⟩
abbrev S5000x300 : Shape := ⟨2, ![5000, 300]⟩
abbrev S5000x128 : Shape := ⟨2, ![5000, 128]⟩
abbrev S700000x128 : Shape := ⟨2, ![700000, 128]⟩
abbrev S1x128 : Shape := ⟨2, ![1, 128]⟩
abbrev S100000x64 : Shape := ⟨2, ![100000, 64]⟩
abbrev S5000x64 : Shape := ⟨2, ![5000, 64]⟩
abbrev S700000x64 : Shape := ⟨2, ![700000, 64]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S1x6 : Shape := ⟨2, ![1, 6]⟩
abbrev S256x6 : Shape := ⟨2, ![256, 6]⟩

abbrev nBuf : Space → Nat
  | .hbm => 118
  | .vmem => 24
  | .smem => 0
  | _ => 0

abbrev bufTy : (tb : Table) → Fin (tcTables nBuf tb) → BufTy
  | .hbm, ⟨0, _⟩ => ⟨S100000, .i32⟩
  | .hbm, ⟨1, _⟩ => ⟨S2x600000, .i32⟩
  | .hbm, ⟨2, _⟩ => ⟨S100000, .i32⟩
  | .hbm, ⟨3, _⟩ => ⟨S100000x300, .f32⟩
  | .hbm, ⟨4, _⟩ => ⟨S300x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x6, .f32⟩
  | .hbm, ⟨9, _⟩ => ⟨S6, .f32⟩
  | .hbm, ⟨10, _⟩ => ⟨S100000, .i32⟩
  | .hbm, ⟨11, _⟩ => ⟨S1x600000, .i32⟩
  | .hbm, ⟨12, _⟩ => ⟨S600000, .i32⟩
  | .hbm, ⟨13, _⟩ => ⟨S700000, .i32⟩
  | .hbm, ⟨14, _⟩ => ⟨S1x600000, .i32⟩
  | .hbm, ⟨15, _⟩ => ⟨S600000, .i32⟩
  | .hbm, ⟨16, _⟩ => ⟨S700000, .i32⟩
  | .hbm, ⟨17, _⟩ => ⟨S_, .f32⟩
  | .hbm, ⟨18, _⟩ => ⟨S700000, .f32⟩
  | .hbm, ⟨19, _⟩ => ⟨S_, .f32⟩
  | .hbm, ⟨20, _⟩ => ⟨S100000, .f32⟩
  | .hbm, ⟨21, _⟩ => ⟨S700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S700000, .i32⟩
  | .hbm, ⟨36, _⟩ => ⟨S700000, .i1⟩
  | .hbm, ⟨37, _⟩ => ⟨S_, .i32⟩
  | .hbm, ⟨38, _⟩ => ⟨S700000, .i32⟩
  | .hbm, ⟨39, _⟩ => ⟨S700000, .i32⟩
  | .hbm, ⟨40, _⟩ => ⟨S700000, .i32⟩
  | .hbm, ⟨41, _⟩ => ⟨S700000x1, .i32⟩
  | .hbm, ⟨42, _⟩ => ⟨S700000, .f32⟩
  | .hbm, ⟨43, _⟩ => ⟨S_, .i32⟩
  | .hbm, ⟨44, _⟩ => ⟨S700000, .i32⟩
  | .hbm, ⟨45, _⟩ => ⟨S700000, .i1⟩
  | .hbm, ⟨46, _⟩ => ⟨S_, .i32⟩
  | .hbm, ⟨47, _⟩ => ⟨S700000, .i32⟩
  | .hbm, ⟨48, _⟩ => ⟨S700000, .i32⟩
  | .hbm, ⟨49, _⟩ => ⟨S700000, .i32⟩
  | .hbm, ⟨50, _⟩ => ⟨S700000x1, .i32⟩
  | .hbm, ⟨51, _⟩ => ⟨S700000, .f32⟩
  | .hbm, ⟨52, _⟩ => ⟨S700000, .f32⟩
  | .hbm, ⟨53, _⟩ => ⟨S_, .i32⟩
  | .hbm, ⟨54, _⟩ => ⟨S100000, .i32⟩
  | .hbm, ⟨55, _⟩ => ⟨S100000, .i1⟩
  | .hbm, ⟨56, _⟩ => ⟨S_, .i32⟩
  | .hbm, ⟨57, _⟩ => ⟨S100000, .i32⟩
  | .hbm, ⟨58, _⟩ => ⟨S100000, .i32⟩
  | .hbm, ⟨59, _⟩ => ⟨S100000, .i32⟩
  | .hbm, ⟨60, _⟩ => ⟨S100000x1, .i32⟩
  | .hbm, ⟨61, _⟩ => ⟨S100000x300, .f32⟩
  | .hbm, ⟨62, _⟩ => ⟨S100000x128, .f32⟩
  | .hbm, ⟨63, _⟩ => ⟨S_, .i32⟩
  | .hbm, ⟨64, _⟩ => ⟨S700000, .i32⟩
  | .hbm, ⟨65, _⟩ => ⟨S700000, .i1⟩
  | .hbm, ⟨66, _⟩ => ⟨S_, .i32⟩
  | .hbm, ⟨67, _⟩ => ⟨S700000, .i32⟩
  | .hbm, ⟨68, _⟩ => ⟨S700000, .i32⟩
  | .hbm, ⟨69, _⟩ => ⟨S700000, .i32⟩
  | .hbm, ⟨70, _⟩ => ⟨S700000x1, .i32⟩
  | .hbm, ⟨71, _⟩ => ⟨S700000x128, .f32⟩
  | .hbm, ⟨72, _⟩ => ⟨S700000x1, .f32⟩
  | .hbm, ⟨73, _⟩ => ⟨S700000x128, .f32⟩
  | .hbm, ⟨74, _⟩ => ⟨S700000x128, .f32⟩
  | .hbm, ⟨75, _⟩ => ⟨S_, .f32⟩
  | .hbm, ⟨76, _⟩ => ⟨S100000x128, .f32⟩
  | .hbm, ⟨77, _⟩ => ⟨S700000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x64, .f32⟩
  | .hbm, ⟨82, _⟩ => ⟨S_, .i32⟩
  | .hbm, ⟨83, _⟩ => ⟨S700000, .i32⟩
  | .hbm, ⟨84, _⟩ => ⟨S700000, .i1⟩
  | .hbm, ⟨85, _⟩ => ⟨S_, .i32⟩
  | .hbm, ⟨86, _⟩ => ⟨S700000, .i32⟩
  | .hbm, ⟨87, _⟩ => ⟨S700000, .i32⟩
  | .hbm, ⟨88, _⟩ => ⟨S700000, .i32⟩
  | .hbm, ⟨89, _⟩ => ⟨S700000x1, .i32⟩
  | .hbm, ⟨90, _⟩ => ⟨S700000x64, .f32⟩
  | .hbm, ⟨91, _⟩ => ⟨S700000x1, .f32⟩
  | .hbm, ⟨92, _⟩ => ⟨S700000x64, .f32⟩
  | .hbm, ⟨93, _⟩ => ⟨S700000x64, .f32⟩
  | .hbm, ⟨94, _⟩ => ⟨S_, .f32⟩
  | .hbm, ⟨95, _⟩ => ⟨S100000x64, .f32⟩
  | .hbm, ⟨96, _⟩ => ⟨S700000x1, .i32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S_, .f32⟩
  | .hbm, ⟨101, _⟩ => ⟨S256x64, .f32⟩
  | .hbm, ⟨102, _⟩ => ⟨S100000x1, .i32⟩
  | .hbm, ⟨103, _⟩ => ⟨S256x64, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S256, .f32⟩
  | .hbm, ⟨108, _⟩ => ⟨S100000x1, .i32⟩
  | .hbm, ⟨109, _⟩ => ⟨S256, .f32⟩
  | .hbm, ⟨110, _⟩ => ⟨S_, .f32⟩
  | .hbm, ⟨111, _⟩ => ⟨S256, .f32⟩
  | .hbm, ⟨112, _⟩ => ⟨S256, .f32⟩
  | .hbm, ⟨113, _⟩ => ⟨S256x1, .f32⟩
  | .hbm, ⟨114, _⟩ => ⟨S256x64, .f32⟩
  | .hbm, ⟨115, _⟩ => ⟨S256x64, .f32⟩
  | .hbm, ⟨116, _⟩ => ⟨S1x6, .f32⟩
  | .hbm, ⟨117, _⟩ => ⟨S256x6, .f32⟩
  | .local _ .vmem, ⟨0, _⟩ => ⟨S5000x300, .f32⟩
  | .local _ .vmem, ⟨1, _⟩ => ⟨S5000x300, .f32⟩
  | .local _ .vmem, ⟨2, _⟩ => ⟨S300x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S256x64, .f32⟩
  | .local _ .vmem, ⟨21, _⟩ => ⟨S64x6, .f32⟩
  | .local _ .vmem, ⟨22, _⟩ => ⟨S1x6, .f32⟩
  | .local _ .vmem, ⟨23, _⟩ => ⟨S256x6, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_c_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_15 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_16 : Ref sig .tc := ⟨.hbm, 104, rfl⟩
abbrev main_v74 : Ref sig .tc := ⟨.hbm, 105, rfl⟩
abbrev main_cst_17 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x6 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x6 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x6 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S100000_S100000x1_0 : S100000.BroadcastsInDim S100000x1 (![0] : Fin 1 → Fin S100000x1.rank)
  inb_S5000x300_S5000x300_0_0 : ∀ a, (![0, 0] : Fin 2 → Nat) a + S5000x300.size a ≤ S5000x300.size a
  h_S5000x300 : 0 < S5000x300.numel
  shapeCasts_S5000x300_S5000x300 : S5000x300.ShapeCasts S5000x300
  bitsLt_bf16_f32 : FTy.bits .bf16 < FTy.bits .f32
  inb_S300x128_S300x128_0_0 : ∀ a, (![0, 0] : Fin 2 → Nat) a + S300x128.size a ≤ S300x128.size a
  h_S300x128 : 0 < S300x128.numel
  inb_S5000x128_S5000x128_0_0 : ∀ a, (![0, 0] : Fin 2 → Nat) a + S5000x128.size a ≤ S5000x128.size a
  h_S5000x128 : 0 < S5000x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S6_S1x6 : S6.ShapeCasts S1x6
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x6_S64x6_0_0 : ∀ a, (![0, 0] : Fin 2 → Nat) a + S64x6.size a ≤ S64x6.size a
  h_S64x6 : 0 < S64x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S256x6 : S1x6.Broadcasts S256x6
  inb_S256x6_S256x6_0_0 : ∀ a, (![0, 0] : Fin 2 → Nat) a + S256x6.size a ≤ S256x6.size a
  h_S256x6 : 0 < S256x6.numel
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x300_S100000x1_S100000x300_1_0_n_n_0_1_1300_wf : GatherDims.WF S100000x300 S100000x1 S100000x300 [1] [0] [] [0] [] 1 ![1, 300]
  dot_S5000x300_S300x128_S5000x128_1_0_0_1_n_n_wf : DotDims.WF S5000x300 S300x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x64_S5000x64_1_0_0_1_n_n_wf : DotDims.WF S5000x128 S128x64 S5000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x6_S256x6_1_0_0_1_n_n_wf : DotDims.WF S256x64 S64x6 S256x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x300.size a ≤ S100000x300.size a
  hwx0_0 : ∀ i : grid0.Coords, EltTy.bits .f32 = 32 ∨ (Rect.block (s := S100000x300) S5000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x128.size a ≤ S300x128.size a
  hwx0_1 : ∀ i : grid0.Coords, EltTy.bits .f32 = 32 ∨ (Rect.block (s := S300x128) S300x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x64.size a ≤ S256x64.size a
  hwx4_0 : ∀ i : grid4.Coords, EltTy.bits .f32 = 32 ∨ (Rect.block (s := S256x64) S256x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x6.size a ≤ S64x6.size a
  hwx4_1 : ∀ i : grid4.Coords, EltTy.bits .f32 = 32 ∨ (Rect.block (s := S64x6) S64x6.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x6.size a ≤ S1x6.size a
  hwx4_2 : ∀ i : grid4.Coords, EltTy.bits .f32 = 32 ∨ (Rect.block (s := S1x6) S1x6.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x6.size a ≤ S256x6.size a
  hwx4_3 : ∀ i : grid4.Coords, EltTy.bits .f32 = 32 ∨ (Rect.block (s := S256x6) S256x6.size (cc4_transform_3 i) (hinb4_3 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x300_S100000x1_S100000x300_1_0_n_n_0_1_1300 : GatherDims S100000x300 S100000x1 S100000x300 where
  offsetDims := [1]
  collapsedSliceDims := [0]
  operandBatchingDims := []
  startIndicesBatchingDims := []
  startIndexMap := [0]
  indexVectorDim := 1
  sliceSizes := ![1, 300]
  wf := gather_S100000x300_S100000x1_S100000x300_1_0_n_n_0_1_1300_wf
def dot_S5000x300_S300x128_S5000x128_1_0_0_1_n_n : DotDims S5000x300 S300x128 S5000x128 where
  lhsContracting := [1]
  rhsContracting := [0]
  lhsNonContracting := [0]
  rhsNonContracting := [1]
  lhsBatch := []
  rhsBatch := []
  wf := dot_S5000x300_S300x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x6_S256x6_1_0_0_1_n_n : DotDims S256x64 S64x6 S256x6 where
  lhsContracting := [1]
  rhsContracting := [0]
  lhsNonContracting := [0]
  rhsNonContracting := [1]
  lhsBatch := []
  rhsBatch := []
  wf := dot_S256x64_S64x6_S256x6_1_0_0_1_n_n_wf

abbrev win0_0 : Pipeline.Window sig grid0 :=
  Pipeline.Window.ofSpec (Memref.whole main_v38) S5000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S300x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v68) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v82) S256x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x6.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S1x6.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84) S256x6.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000 : Shape := ⟨1, ![100000]⟩
abbrev S2x600000 : Shape := ⟨2, ![2, 600000]⟩
abbrev S100000x300 : Shape := ⟨2, ![100000, 300]⟩
abbrev S300x128 : Shape := ⟨2, ![300, 128]⟩
abbrev S128 : Shape := ⟨1, ![128]⟩
abbrev S128x64 : Shape := ⟨2, ![128, 64]⟩
abbrev S64 : Shape := ⟨1, ![64]⟩
abbrev S64x6 : Shape := ⟨2, ![64, 6]⟩
abbrev S6 : Shape := ⟨1, ![6]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x1 : Shape := ⟨2, ![100000, 1]⟩
abbrev S100000x128 : Shape := ⟨2, ![100000, 128]⟩
abbrev S700000x128 : Shape := ⟨2, ![700000, 128]⟩
abbrev S1x128 : Shape := ⟨2, ![1, 128]⟩
abbrev S100000x64 : Shape := ⟨2, ![100000, 64]⟩
abbrev S700000x64 : Shape := ⟨2, ![700000, 64]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S256x6 : Shape := ⟨2, ![256, 6]⟩
abbrev S1x6 : Shape := ⟨2, ![1, 6]⟩

abbrev nBuf : Space → Nat
  | .hbm => 131
  | .vmem => 0
  | .smem => 0
  | _ => 0

abbrev hbmTy0_0 (i : Nat) : BufTy := match i % 128 with
  | 0 => ⟨S100000, .i32⟩
  | 1 => ⟨S2x600000, .i32⟩
  | 2 => ⟨S100000, .i32⟩
  | 3 => ⟨S100000x300, .f32⟩
  | 4 => ⟨S300x128, .f32⟩
  | 5 => ⟨S128, .f32⟩
  | 6 => ⟨S128x64, .f32⟩
  | 7 => ⟨S64, .f32⟩
  | 8 => ⟨S64x6, .f32⟩
  | 9 => ⟨S6, .f32⟩
  | 10 => ⟨S100000, .i32⟩
  | 11 => ⟨S1x600000, .i32⟩
  | 12 => ⟨S600000, .i32⟩
  | 13 => ⟨S700000, .i32⟩
  | 14 => ⟨S1x600000, .i32⟩
  | 15 => ⟨S600000, .i32⟩
  | 16 => ⟨S700000, .i32⟩
  | 17 => ⟨S_, .f32⟩
  | 18 => ⟨S700000, .f32⟩
  | 19 => ⟨S_, .f32⟩
  | 20 => ⟨S100000, .f32⟩
  | 21 => ⟨S700000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S700000, .i32⟩
  | 36 => ⟨S700000, .i1⟩
  | 37 => ⟨S_, .i32⟩
  | 38 => ⟨S700000, .i32⟩
  | 39 => ⟨S700000, .i32⟩
  | 40 => ⟨S700000, .i32⟩
  | 41 => ⟨S700000x1, .i32⟩
  | 42 => ⟨S700000, .f32⟩
  | 43 => ⟨S_, .i32⟩
  | 44 => ⟨S700000, .i32⟩
  | 45 => ⟨S700000, .i1⟩
  | 46 => ⟨S_, .i32⟩
  | 47 => ⟨S700000, .i32⟩
  | 48 => ⟨S700000, .i32⟩
  | 49 => ⟨S700000, .i32⟩
  | 50 => ⟨S700000x1, .i32⟩
  | 51 => ⟨S700000, .f32⟩
  | 52 => ⟨S700000, .f32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S100000x300, .f32⟩
  | 62 => ⟨S100000x128, .f32⟩
  | 63 => ⟨S_, .i32⟩
  | 64 => ⟨S700000, .i32⟩
  | 65 => ⟨S700000, .i1⟩
  | 66 => ⟨S_, .i32⟩
  | 67 => ⟨S700000, .i32⟩
  | 68 => ⟨S700000, .i32⟩
  | 69 => ⟨S700000, .i32⟩
  | 70 => ⟨S700000x1, .i32⟩
  | 71 => ⟨S700000x128, .f32⟩
  | 72 => ⟨S700000x1, .f32⟩
  | 73 => ⟨S700000x128, .f32⟩
  | 74 => ⟨S700000x128, .f32⟩
  | 75 => ⟨S_, .f32⟩
  | 76 => ⟨S100000x128, .f32⟩
  | 77 => ⟨S700000x1, .i32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x64, .f32⟩
  | 86 => ⟨S_, .i32⟩
  | 87 => ⟨S700000, .i32⟩
  | 88 => ⟨S700000, .i1⟩
  | 89 => ⟨S_, .i32⟩
  | 90 => ⟨S700000, .i32⟩
  | 91 => ⟨S700000, .i32⟩
  | 92 => ⟨S700000, .i32⟩
  | 93 => ⟨S700000x1, .i32⟩
  | 94 => ⟨S700000x64, .f32⟩
  | 95 => ⟨S700000x1, .f32⟩
  | 96 => ⟨S700000x64, .f32⟩
  | 97 => ⟨S700000x64, .f32⟩
  | 98 => ⟨S_, .f32⟩
  | 99 => ⟨S100000x64, .f32⟩
  | 100 => ⟨S700000x1, .i32⟩
  | 101 => ⟨S100000x64, .f32⟩
  | 102 => ⟨S1x64, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S_, .f32⟩
  | 109 => ⟨S256x64, .f32⟩
  | 110 => ⟨S100000x1, .i32⟩
  | 111 => ⟨S256x64, .f32⟩
  | 112 => ⟨S_, .f32⟩
  | 113 => ⟨S100000, .f32⟩
  | 114 => ⟨S_, .f32⟩
  | 115 => ⟨S256, .f32⟩
  | 116 => ⟨S100000x1, .i32⟩
  | 117 => ⟨S256, .f32⟩
  | 118 => ⟨S_, .f32⟩
  | 119 => ⟨S256, .f32⟩
  | 120 => ⟨S256, .f32⟩
  | 121 => ⟨S256x1, .f32⟩
  | 122 => ⟨S256x64, .f32⟩
  | 123 => ⟨S256x64, .f32⟩
  | 124 => ⟨S256x6, .f32⟩
  | 125 => ⟨S1x6, .f32⟩
  | 126 => ⟨S256x6, .f32⟩
  | 127 => ⟨S256x6, .f32⟩
  | _ => ⟨S100000, .i32⟩

abbrev hbmTy0_1 (i : Nat) : BufTy := match i % 128 with
  | 0 => ⟨S_, .f32⟩
  | 1 => ⟨S256x6, .f32⟩
  | 2 => ⟨S256x6, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call1_cst : Ref sig .tc := ⟨.hbm, 82, rfl⟩
abbrev main_call1_v0 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call2_cst : Ref sig .tc := ⟨.hbm, 105, rfl⟩
abbrev main_call2_v0 : Ref sig .tc := ⟨.hbm, 106, rfl⟩
abbrev main_v74 : Ref sig .tc := ⟨.hbm, 107, rfl⟩
abbrev main_cst_15 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_16 : Ref sig .tc := ⟨.hbm, 112, rfl⟩
abbrev main_v78 : Ref sig .tc := ⟨.hbm, 113, rfl⟩
abbrev main_cst_17 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_18 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S100000_S100000x1_0 : S100000.BroadcastsInDim S100000x1 (![0] : Fin 1 → Fin S100000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S6_S1x6_1 : S6.BroadcastsInDim S1x6 (![1] : Fin 1 → Fin S1x6.rank)
  bcast_S1x6_S256x6_0_1 : S1x6.BroadcastsInDim S256x6 (![0, 1] : Fin 2 → Fin S256x6.rank)
  bcast_S_S256x6 : S_.BroadcastsInDim S256x6 (![] : Fin 0 → Fin S256x6.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x300_S100000x1_S100000x300_1_0_n_n_0_1_1300_wf : GatherDims.WF S100000x300 S100000x1 S100000x300 [1] [0] [] [0] [] 1 ![1, 300]
  dot_S100000x300_S300x128_S100000x128_1_0_0_1_n_n_wf : DotDims.WF S100000x300 S300x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x64_S100000x64_1_0_0_1_n_n_wf : DotDims.WF S100000x128 S128x64 S100000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x6_S256x6_1_0_0_1_n_n_wf : DotDims.WF S256x64 S64x6 S256x6 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x300_S100000x1_S100000x300_1_0_n_n_0_1_1300 : GatherDims S100000x300 S100000x1 S100000x300 where
  offsetDims := [1]
  collapsedSliceDims := [0]
  operandBatchingDims := []
  startIndicesBatchingDims := []
  startIndexMap := [0]
  indexVectorDim := 1
  sliceSizes := ![1, 300]
  wf := gather_S100000x300_S100000x1_S100000x300_1_0_n_n_0_1_1300_wf
def dot_S100000x300_S300x128_S100000x128_1_0_0_1_n_n : DotDims S100000x300 S300x128 S100000x128 where
  lhsContracting := [1]
  rhsContracting := [0]
  lhsNonContracting := [0]
  rhsNonContracting := [1]
  lhsBatch := []
  rhsBatch := []
  wf := dot_S100000x300_S300x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x6_S256x6_1_0_0_1_n_n : DotDims S256x64 S64x6 S256x6 where
  lhsContracting := [1]
  rhsContracting := [0]
  lhsNonContracting := [0]
  rhsNonContracting := [1]
  lhsBatch := []
  rhsBatch := []
  wf := dot_S256x64_S64x6_S256x6_1_0_0_1_n_n_wf

class Facts : Prop extends Facts₀ where

variable [Facts]
-- ==== Proof.LibPlainDot.lean ====
/-
  A plain matrix contraction, read as one sum.

  For ANY record of dimension numbers that contracts the left operand's axis 1 with the right operand's axis 0,
  keeps the left operand's axis 0 and the right operand's axis 1 in that order and has no batch axis — the
  dimension numbers of `A @ B` for A of shape [M, K] and B of shape [K, N], at any extents — the contraction
  over the record's own index type is the textbook sum

      (A @ B) (r, q) = ∑ k : Fin K, A (r, k) * B (k, q).

  So over the extended reals a host `dot_general` and a kernel matrix unit fed a zero accumulator, whatever
  records they carry, are both the function `mm`; and `mm` of a block of rows of A is that block of rows of
  `mm A B` (`mm_rows`): a row-tiled product computes the whole product.
-/
import Idealize.ShloMosaic.PureOps.Ideal.Laws
import Idealize.ShloMosaic.Lib.ValueIdx

noncomputable section

namespace Cert.PlainDot

open Idealize.ShloMosaic Idealize.ShloMosaic.ValueIdx

/-- The matrix product of an [M, K] and a [K, N] array, entry by entry a sum over the contracted axis. -/
def mm {M K N : Nat} (A : (⟨2, ![M, K]⟩ : Shape).Idx → EReal) (B : (⟨2, ![K, N]⟩ : Shape).Idx → EReal) :
    (⟨2, ![M, N]⟩ : Shape).Idx → EReal :=
  fun i => ∑ k : Fin K, A (ix2 (n0 := M) (n1 := K) (i 0) k) * B (ix2 (n0 := K) (n1 := N) k (i 1))

theorem mm_apply {M K N : Nat} (A : (⟨2, ![M, K]⟩ : Shape).Idx → EReal) (B : (⟨2, ![K, N]⟩ : Shape).Idx → EReal)
    (r : Fin M) (q : Fin N) :
    mm A B (ix2 r q) = ∑ k : Fin K, A (ix2 r k) * B (ix2 k q) := rfl

variable {M K N : Nat}

/-- The record's contraction, re-indexed by the one contracted coordinate, is the textbook sum. -/
theorem sum_eq_mm (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal)
    (i : (⟨2, ![M, N]⟩ : Shape).Idx) :
    ∑ q : D.contr.Idx, l (D.lhsIdx i q) * r (D.rhsIdx i q) = mm l r i := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  unfold mm
  refine Finset.sum_congr rfl fun k _ => ?_
  have hk := contrEquiv1_symm_val D K hr hs k
  have hlc : D.lhsContracting = [1] := by subst hD; rfl
  have hrc : D.rhsContracting = [0] := by subst hD; rfl
  have l0 : ∀ q : D.contr.Idx, (D.lhsIdx i q 0).val = (i 0).val := by
    subst hD
    intro q
    unfold DotDims.lhsIdx
    rw [dif_neg (by simp), dif_pos (by simp)]
    rfl
  have r1 : ∀ q : D.contr.Idx, (D.rhsIdx i q 1).val = (i 1).val := by
    subst hD
    intro q
    unfold DotDims.rhsIdx
    rw [dif_neg (by simp), dif_pos (by simp)]
    rfl
  have el : D.lhsIdx i ((contrEquiv1 D K hr hs).symm k) = ix2 (n0 := M) (n1 := K) (i 0) k := funext fun a => Fin.ext (by
    match a with
    | ⟨0, _⟩ => exact l0 _
    | ⟨1, _⟩ => exact (D.lhsIdx_val_of_single hlc i _).trans hk)
  have er : D.rhsIdx i ((contrEquiv1 D K hr hs).symm k) = ix2 (n0 := K) (n1 := N) k (i 1) := funext fun a => Fin.ext (by
    match a with
    | ⟨0, _⟩ => exact (D.rhsIdx_val_of_single hrc i _).trans hk
    | ⟨1, _⟩ => exact r1 _)
  rw [el, er]

/-- A host `dot_general` with such a record is `mm`, whatever its precision and schedule. -/
theorem dotGeneral_eq_mm {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal ⟨2, ![M, K]⟩ φ₁) (r : FVec Ideal ⟨2, ![K, N]⟩ φ₂) :
    FloatOps.dotGeneral D prec sched l r = mm l r := by
  funext i
  rw [Ideal.dotGeneral_apply]
  exact sum_eq_mm D h1 h2 h3 h4 h5 h6 l r i

/-- A kernel matrix unit with such a record, fed the zero accumulator, is `mm`. -/
theorem matmul_zero_eq_mm {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision)
    (l : FVec Ideal ⟨2, ![M, K]⟩ φ₁) (r : FVec Ideal ⟨2, ![K, N]⟩ φ₂) :
    FloatOps.matmul D prec l r (constant (F := Ideal) ⟨2, ![M, N]⟩ .f32 0x00000000#32) = mm l r := by
  funext i
  rw [Ideal.matmul_constant_zero_apply]
  exact sum_eq_mm D h1 h2 h3 h4 h5 h6 l r i

/-- Rows `o, o + 1, …, o + P - 1` of a product are the product of those rows of the left factor. -/
theorem mm_rows {P : Nat} (A : (⟨2, ![M, K]⟩ : Shape).Idx → EReal) (B : (⟨2, ![K, N]⟩ : Shape).Idx → EReal)
    (Ablk : (⟨2, ![P, K]⟩ : Shape).Idx → EReal) (o : Nat)
    (hA : ∀ (p : Fin P) (k : Fin K) (hp : o + p.val < M), Ablk (ix2 p k) = A (ix2 ⟨o + p.val, hp⟩ k))
    (p : Fin P) (q : Fin N) (hp : o + p.val < M) :
    mm Ablk B (ix2 p q) = mm A B (ix2 ⟨o + p.val, hp⟩ q) := by
  rw [mm_apply, mm_apply]
  exact Finset.sum_congr rfl fun k _ => by rw [hA p k hp]

end Cert.PlainDot

end
-- ==== Proof.Region0.lean ====
/-
  Region 0 (the first linear projection, H @ W with H of shape [100000, 300] and W of shape [300, 128]),
  tiled in twenty blocks of 5000 rows.

  At grid point t the body multiplies rows 5000 t … 5000 t + 4999 of H by the whole of W and stores the
  product as rows 5000 t … 5000 t + 4999 of the result. A block of rows of a product is the product of that
  block of rows, and the twenty row blocks tile the result, so after the region the result array is the whole
  product `mm H W`, whatever the region finds in H and W.
-/
import proofs.«139460_j24592982737431_1_alg».proof.Proof.Gen.KernelIdeal.Frame
import proofs.«139460_j24592982737431_1_alg».proof.Proof.LibPlainDot
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open Cert.PlainDot

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks (rounding to bf16 is the identity on
    extended reals, the accumulator is the zero splat). -/
theorem pay_eq (x0 : Vec Ideal S5000x300 .f32) (x1 : Vec Ideal S300x128 .f32) :
    k0_pay1 x0 x1 = mm (M := 5000) (K := 300) (N := 128) x0 x1 := by
  unfold k0_pay1
  dsimp only
  rw [shapeCast_self]
  exact matmul_zero_eq_mm dot_S5000x300_S300x128_S5000x128_1_0_0_1_n_n rfl rfl rfl rfl rfl rfl none _ _

/-- The printed index maps over the grid: H's and the result's block move together down the rows, W's block
    never moves, no block moves along the columns. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (c : Dev nD) (t : Fin cfg0.N) :
    (dat0 V c).flushed 2 t = ((cfg0.win 2).blk t).view.read (Elt Ideal)
      (mm (M := 100000) (K := 300) (N := 128) (V c main_v38) (V c main_arg4)) := by
  show (cfg0.win 2).cut (grid0.coords t) ((dat0 V c).after 2 t) = _
  rw [after0_2]
  unfold out0_2
  rw [View.canon_unit_zero hz]
  simp only [View.ld_unit_zero (S := S5000x300) hz, View.ld_unit_zero (S := S300x128) hz]
  rw [pay_eq]
  obtain ⟨e00, e01, e10, e11, e20, e21⟩ := idx_facts t
  funext j
  show mm (M := 5000) (K := 300) (N := 128) (iblk0 V c 0 t) (iblk0 V c 1 t) j
    = mm (M := 100000) (K := 300) (N := 128) (V c main_v38) (V c main_arg4) (((cfg0.win 2).blk t).view.emb j)
  unfold mm
  refine Finset.sum_congr rfl fun k _ => ?_
  have hj0 : (j 0).val < 5000 := (j 0).isLt
  have hj1 : (j 1).val < 128 := (j 1).isLt
  have hk : k.val < 300 := k.isLt
  have hA : iblk0 V c 0 t (ix2 (n0 := 5000) (n1 := 300) (j 0) k)
      = V c main_v38 (ix2 (n0 := 100000) (n1 := 300) ((((cfg0.win 2).blk t).view.emb j) 0) k) := by
    unfold iblk0
    rw [View.read_apply]
    show V c main_v38 _ = V c main_v38 _
    refine congrArg (V c main_v38) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 300 + 1 * k.val = k.val; omega
  have hB : iblk0 V c 1 t (ix2 (n0 := 300) (n1 := 128) k (j 1))
      = V c main_arg4 (ix2 (n0 := 300) (n1 := 128) k ((((cfg0.win 2).blk t).view.emb j) 1)) := by
    unfold iblk0
    rw [View.read_apply]
    show V c main_arg4 _ = V c main_arg4 _
    refine congrArg (V c main_arg4) (funext fun a => Fin.ext ?_)
    match a with
    | ⟨0, _⟩ => show win0_1.index t (0 : Fin 2) * 300 + 1 * k.val = k.val; omega
    | ⟨1, _⟩ => show win0_1.index t (1 : Fin 2) * 128 + 1 * (j 1).val = win0_2.index t (1 : Fin 2) * 128 + 1 * (j 1).val; omega
  rw [hA, hB]

/-- An index of the result is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v39).slice (win0_2.rect t)).set ↔ _
  rw [View.set_slice_whole, Rect.mem_set_unit]
  exact Iff.rfl

/-- Row r of the result is written by point r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk]
  obtain ⟨-, -, -, -, e20, e21⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e20]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e21]; omega

/-- After the region the result array is the whole product of what the region found in H and W. -/
theorem arr (c : Dev nD) :
    (dat0 V c).arrAt 2 cfg0.N = mm (M := 100000) (K := 300) (N := 128) (V c main_v38) (V c main_arg4) :=
  (dat0 V c).arrAt_eq_of_cover 2 _ (fun t _ => flushed_eq V c t) cover

end Cert.KernelIdeal.Region0

end
-- ==== Proof.Spec.lean ====
/-
  The pointwise whole-array functions the kernel regions compute, over the extended reals (the matrix product
  `mm` is in LibPlainDot.lean).

  * `biasRelu X b` adds the row vector b (kept as a [1, N] array) to every row of X and clamps below at the
    value of the zero word: entry (r, q) is max (X (r, q) + b (0, q)) 0.
  * `rowOf b` is a length-N vector laid out as the single row of a [1, N] array.

  A GCN layer is `biasRelu (aggregate (mm H W)) (rowOf b)`; the aggregation between the two is the same host
  computation in both programs and never opened.
-/
import Idealize.ShloMosaic.PureOps.Ideal
import Idealize.ShloMosaic.Lib.ValueIdx

noncomputable section

namespace Cert.Spec

open Idealize.ShloMosaic Idealize.ShloMosaic.ValueIdx

/-- The value of the all-zero 32-bit word read as a float: the lower clamp of a ReLU. -/
abbrev zeroWord : EReal := Ideal.ofBits .f32 0x00000000#32

/-- Row-broadcast bias followed by the clamp at zero. -/
def biasRelu {M N : Nat} (X : (⟨2, ![M, N]⟩ : Shape).Idx → EReal) (b : (⟨2, ![1, N]⟩ : Shape).Idx → EReal) :
    (⟨2, ![M, N]⟩ : Shape).Idx → EReal :=
  fun i => max (X i + b (ix2 (n0 := 1) (n1 := N) 0 (i 1))) zeroWord

theorem biasRelu_apply {M N : Nat} (X : (⟨2, ![M, N]⟩ : Shape).Idx → EReal) (b : (⟨2, ![1, N]⟩ : Shape).Idx → EReal)
    (r : Fin M) (q : Fin N) :
    biasRelu X b (ix2 r q) = max (X (ix2 r q) + b (ix2 0 q)) zeroWord := rfl

/-- A vector as the one row of a [1, N] array. -/
def rowOf {N : Nat} (b : (⟨1, ![N]⟩ : Shape).Idx → EReal) : (⟨2, ![1, N]⟩ : Shape).Idx → EReal :=
  fun i => b (ix1 (n := N) (i 1))

theorem rowOf_apply {N : Nat} (b : (⟨1, ![N]⟩ : Shape).Idx → EReal) (q : Fin N) :
    rowOf b (ix2 (n0 := 1) 0 q) = b (ix1 q) := rfl

end Cert.Spec

end
-- ==== Proof.Region1.lean ====
/-
  Region 1 (bias and ReLU after the first aggregation): X of shape [100000, 128] and the bias as a [1, 128]
  row, tiled in twenty blocks of 5000 rows.

  At grid point t the body adds the bias row to rows 5000 t … 5000 t + 4999 of X, clamps at zero and stores the
  result as the same rows of the output. The operation is pointwise in the row index, and the twenty row blocks
  tile the output, so after the region the output array is `biasRelu X b` of what the region found in X and b.
-/
import proofs.«139460_j24592982737431_1_alg».proof.Proof.Gen.KernelIdeal.Frame
import proofs.«139460_j24592982737431_1_alg».proof.Proof.Spec
import Idealize.ShloMosaic.Lib.Pipeline.Value
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at row p, column q: the loaded entry plus the bias row's entry at q, clamped at
    the zero word's value. -/
theorem pay_apply (x0 : Vec Ideal S5000x128 .f32) (x1 : Vec Ideal S1x128 .f32) (p : Fin 5000) (q : Fin 128) :
    k1_pay1 x0 x1 (ix2 p q) = max (x0 (ix2 p q) + x1 (ix2 (0 : Fin 1) q)) zeroWord := by
  unfold k1_pay1
  try dsimp only
  rw [shapeCast_self, shapeCast_self, shapeCast_self]
  rw [maximumf_apply, addf_apply, broadcastTo_1b_ab_apply]
  rfl

/-- The printed index maps over the grid: X's and the output's block move together down the rows, the bias
    row's block never moves, no block moves along the columns. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of `biasRelu X b`. -/
theorem flushed_eq (c : Dev nD) (t : Fin cfg1.N) :
    (dat1 V c).flushed 2 t = ((cfg1.win 2).blk t).view.read (Elt Ideal)
      (biasRelu (M := 100000) (N := 128) (V c main_v52) (V c main_v53)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e00, e01, e10, e11, e20, e21⟩ := idx_facts t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = biasRelu (M := 100000) (N := 128) (V c main_v52) (V c main_v53) (((cfg1.win 2).blk t).view.emb (ix2 p q))
  rw [pay_apply]
  have hp : p.val < 5000 := p.isLt
  have hq : q.val < 128 := q.isLt
  have hA : iblk1 V c 0 t (ix2 p q) = V c main_v52 (((cfg1.win 2).blk t).view.emb (ix2 p q)) := by
    unfold iblk1
    rw [View.read_apply]
    show V c main_v52 _ = V c main_v52 _
    refine congrArg (V c main_v52) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have hB : iblk1 V c 1 t (ix2 (0 : Fin 1) q)
      = V c main_v53 (ix2 (n0 := 1) (n1 := 128) 0 ((((cfg1.win 2).blk t).view.emb (ix2 p q)) 1)) := by
    unfold iblk1
    rw [View.read_apply]
    show V c main_v53 _ = V c main_v53 _
    refine congrArg (V c main_v53) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [hA, hB]
  rfl

/-- An index of the output is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v54).slice (win1_2.rect t)).set ↔ _
  rw [View.set_slice_whole, Rect.mem_set_unit]
  exact Iff.rfl

/-- Row r of the output is written by point r / 5000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_2 _, ?_⟩
  rw [mem_blk]
  obtain ⟨-, -, -, -, e20, e21⟩ := idx_facts ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e20]; show (i 0).val / 5000 * 5000 ≤ (i 0).val ∧ (i 0).val < (i 0).val / 5000 * 5000 + 5000; omega
  | ⟨1, _⟩ =>
    show win1_2.index _ (1 : Fin 2) * 128 ≤ (i 1).val ∧ (i 1).val < win1_2.index _ (1 : Fin 2) * 128 + 128
    rw [e21]; omega

/-- After the region the output array is the bias-and-clamp of what the region found in X and the bias row. -/
theorem arr (c : Dev nD) :
    (dat1 V c).arrAt 2 cfg1.N = biasRelu (M := 100000) (N := 128) (V c main_v52) (V c main_v53) :=
  (dat1 V c).arrAt_eq_of_cover 2 _ (fun t _ => flushed_eq V c t) cover

end Cert.KernelIdeal.Region1

end
-- ==== Proof.Region2.lean ====
/-
  Region 2 (the second linear projection, H @ W with H of shape [100000, 128] and W of shape [128, 64]),
  tiled in twenty blocks of 5000 rows.

  At grid point t the body multiplies rows 5000 t … 5000 t + 4999 of H by the whole of W and stores the
  product as rows 5000 t … 5000 t + 4999 of the result. A block of rows of a product is the product of that
  block of rows, and the twenty row blocks tile the result, so after the region the result array is the whole
  product `mm H W`, whatever the region finds in H and W.
-/
import proofs.«139460_j24592982737431_1_alg».proof.Proof.Gen.KernelIdeal.Frame
import proofs.«139460_j24592982737431_1_alg».proof.Proof.LibPlainDot
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)
open Cert.PlainDot

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks (rounding to bf16 is the identity on
    extended reals, the accumulator is the zero splat). -/
theorem pay_eq (x0 : Vec Ideal S5000x128 .f32) (x1 : Vec Ideal S128x64 .f32) :
    k2_pay1 x0 x1 = mm (M := 5000) (K := 128) (N := 64) x0 x1 := by
  unfold k2_pay1
  dsimp only
  rw [shapeCast_self]
  exact matmul_zero_eq_mm dot_S5000x128_S128x64_S5000x64_1_0_0_1_n_n rfl rfl rfl rfl rfl rfl none _ _

/-- The printed index maps over the grid: H's and the result's block move together down the rows, W's block
    never moves, no block moves along the columns. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product. -/
theorem flushed_eq (c : Dev nD) (t : Fin cfg2.N) :
    (dat2 V c).flushed 2 t = ((cfg2.win 2).blk t).view.read (Elt Ideal)
      (mm (M := 100000) (K := 128) (N := 64) (V c main_v54) (V c main_arg6)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  rw [pay_eq]
  obtain ⟨e00, e01, e10, e11, e20, e21⟩ := idx_facts t
  funext j
  show mm (M := 5000) (K := 128) (N := 64) (iblk2 V c 0 t) (iblk2 V c 1 t) j
    = mm (M := 100000) (K := 128) (N := 64) (V c main_v54) (V c main_arg6) (((cfg2.win 2).blk t).view.emb j)
  unfold mm
  refine Finset.sum_congr rfl fun k _ => ?_
  have hj0 : (j 0).val < 5000 := (j 0).isLt
  have hj1 : (j 1).val < 64 := (j 1).isLt
  have hk : k.val < 128 := k.isLt
  have hA : iblk2 V c 0 t (ix2 (n0 := 5000) (n1 := 128) (j 0) k)
      = V c main_v54 (ix2 (n0 := 100000) (n1 := 128) ((((cfg2.win 2).blk t).view.emb j) 0) k) := by
    unfold iblk2
    rw [View.read_apply]
    show V c main_v54 _ = V c main_v54 _
    refine congrArg (V c main_v54) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hB : iblk2 V c 1 t (ix2 (n0 := 128) (n1 := 64) k (j 1))
      = V c main_arg6 (ix2 (n0 := 128) (n1 := 64) k ((((cfg2.win 2).blk t).view.emb j) 1)) := by
    unfold iblk2
    rw [View.read_apply]
    show V c main_arg6 _ = V c main_arg6 _
    refine congrArg (V c main_arg6) (funext fun a => Fin.ext ?_)
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  rw [hA, hB]

/-- An index of the result is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v55).slice (win2_2.rect t)).set ↔ _
  rw [View.set_slice_whole, Rect.mem_set_unit]
  exact Iff.rfl

/-- Row r of the result is written by point r / 5000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_2 _, ?_⟩
  rw [mem_blk]
  obtain ⟨-, -, -, -, e20, e21⟩ := idx_facts ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e20]; show (i 0).val / 5000 * 5000 ≤ (i 0).val ∧ (i 0).val < (i 0).val / 5000 * 5000 + 5000; omega
  | ⟨1, _⟩ =>
    show win2_2.index _ (1 : Fin 2) * 64 ≤ (i 1).val ∧ (i 1).val < win2_2.index _ (1 : Fin 2) * 64 + 64
    rw [e21]; omega

/-- After the region the result array is the whole product of what the region found in H and W. -/
theorem arr (c : Dev nD) :
    (dat2 V c).arrAt 2 cfg2.N = mm (M := 100000) (K := 128) (N := 64) (V c main_v54) (V c main_arg6) :=
  (dat2 V c).arrAt_eq_of_cover 2 _ (fun t _ => flushed_eq V c t) cover

end Cert.KernelIdeal.Region2

end
-- ==== Proof.Region3.lean ====
/-
  Region 3 (bias and ReLU after the second aggregation): X of shape [100000, 64] and the bias as a [1, 64]
  row, tiled in twenty blocks of 5000 rows.

  At grid point t the body adds the bias row to rows 5000 t … 5000 t + 4999 of X, clamps at zero and stores the
  result as the same rows of the output. The operation is pointwise in the row index, and the twenty row blocks
  tile the output, so after the region the output array is `biasRelu X b` of what the region found in X and b.
-/
import proofs.«139460_j24592982737431_1_alg».proof.Proof.Gen.KernelIdeal.Frame
import proofs.«139460_j24592982737431_1_alg».proof.Proof.Spec
import Idealize.ShloMosaic.Lib.Pipeline.Value
import Idealize.ShloMosaic.Lib.ValueLayout

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at row p, column q: the loaded entry plus the bias row's entry at q, clamped at
    the zero word's value. -/
theorem pay_apply (x0 : Vec Ideal S5000x64 .f32) (x1 : Vec Ideal S1x64 .f32) (p : Fin 5000) (q : Fin 64) :
    k3_pay1 x0 x1 (ix2 p q) = max (x0 (ix2 p q) + x1 (ix2 (0 : Fin 1) q)) zeroWord := by
  unfold k3_pay1
  try dsimp only
  rw [shapeCast_self, shapeCast_self, shapeCast_self]
  rw [maximumf_apply, addf_apply, broadcastTo_1b_ab_apply]
  rfl

/-- The printed index maps over the grid: X's and the output's block move together down the rows, the bias
    row's block never moves, no block moves along the columns. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of `biasRelu X b`. -/
theorem flushed_eq (c : Dev nD) (t : Fin cfg3.N) :
    (dat3 V c).flushed 2 t = ((cfg3.win 2).blk t).view.read (Elt Ideal)
      (biasRelu (M := 100000) (N := 64) (V c main_v68) (V c main_v69)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e00, e01, e10, e11, e20, e21⟩ := idx_facts t
  funext j
  obtain ⟨p, q, rfl⟩ : ∃ (p : Fin 5000) (q : Fin 64), j = ix2 p q := ⟨j 0, j 1, eq_ix2 j⟩
  show k3_pay1 (iblk3 V c 0 t) (iblk3 V c 1 t) (ix2 p q)
    = biasRelu (M := 100000) (N := 64) (V c main_v68) (V c main_v69) (((cfg3.win 2).blk t).view.emb (ix2 p q))
  rw [pay_apply]
  have hp : p.val < 5000 := p.isLt
  have hq : q.val < 64 := q.isLt
  have hA : iblk3 V c 0 t (ix2 p q) = V c main_v68 (((cfg3.win 2).blk t).view.emb (ix2 p q)) := by
    unfold iblk3
    rw [View.read_apply]
    show V c main_v68 _ = V c main_v68 _
    refine congrArg (V c main_v68) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  have hB : iblk3 V c 1 t (ix2 (0 : Fin 1) q)
      = V c main_v69 (ix2 (n0 := 1) (n1 := 64) 0 ((((cfg3.win 2).blk t).view.emb (ix2 p q)) 1)) := by
    unfold iblk3
    rw [View.read_apply]
    show V c main_v69 _ = V c main_v69 _
    refine congrArg (V c main_v69) (funext fun a => Fin.ext ?_)
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [hA, hB]
  rfl

/-- An index of the output is in point t's block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v70).slice (win3_2.rect t)).set ↔ _
  rw [View.set_slice_whole, Rect.mem_set_unit]
  exact Iff.rfl

/-- Row r of the output is written by point r / 5000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_2 _, ?_⟩
  rw [mem_blk]
  obtain ⟨-, -, -, -, e20, e21⟩ := idx_facts ⟨(i 0).val / 5000, by rw [hN]; omega⟩
  intro a
  match a with
  | ⟨0, _⟩ =>
    show win3_2.index _ (0 : Fin 2) * 5000 ≤ (i 0).val ∧ (i 0).val < win3_2.index _ (0 : Fin 2) * 5000 + 5000
    rw [e20]; show (i 0).val / 5000 * 5000 ≤ (i 0).val ∧ (i 0).val < (i 0).val / 5000 * 5000 + 5000; omega
  | ⟨1, _⟩ =>
    show win3_2.index _ (1 : Fin 2) * 64 ≤ (i 1).val ∧ (i 1).val < win3_2.index _ (1 : Fin 2) * 64 + 64
    rw [e21]; omega

/-- After the region the output array is the bias-and-clamp of what the region found in X and the bias row. -/
theorem arr (c : Dev nD) :
    (dat3 V c).arrAt 2 cfg3.N = biasRelu (M := 100000) (N := 64) (V c main_v68) (V c main_v69) :=
  (dat3 V c).arrAt_eq_of_cover 2 _ (fun t _ => flushed_eq V c t) cover

end Cert.KernelIdeal.Region3

end
-- ==== Proof.Region4.lean ====
/-
  Region 4 (the output layer): P of shape [256, 64], W of shape [64, 6] and the bias as a [1, 6] row, in ONE
  grid point whose blocks are the whole arrays.

  The body multiplies P by W, adds the bias row to every row of the product, clamps at zero and stores the
  [256, 6] result; the one block is the whole output array, so after the region the output is
  `biasRelu (mm P W) b` of what the region found in P, W and b.
-/
import proofs.«139460_j24592982737431_1_alg».proof.Proof.Gen.KernelIdeal.Frame
import proofs.«139460_j24592982737431_1_alg».proof.Proof.Spec
import proofs.«139460_j24592982737431_1_alg».proof.Proof.LibPlainDot
import Idealize.ShloMosaic.Lib.Pipeline.Value
import Idealize.ShloMosaic.Lib.ValueLayout

set_option maxRecDepth 16384

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)
open Cert.Spec Cert.PlainDot

variable (V : (c : Dev nD) → (b : Ref sig .tc) → Buf (Elt Ideal) ((c : Thread nD τ).loc b))

theorem hz : (![0, 0] : Fin 2 → Nat) = fun _ => 0 := funext fun a => by fin_cases a <;> rfl

/-- The body's stored value at row p, column q: the product's entry plus the bias row's entry at q, clamped at
    the zero word's value. -/
theorem pay_apply (x0 : Vec Ideal S256x64 .f32) (x1 : Vec Ideal S64x6 .f32) (x2 : Vec Ideal S1x6 .f32) (p : Fin 256) (q : Fin 6) :
    k4_pay1 x0 x1 x2 (ix2 p q)
      = max (mm (M := 256) (K := 64) (N := 6) x0 x1 (ix2 p q) + x2 (ix2 (0 : Fin 1) q)) zeroWord := by
  unfold k4_pay1
  try dsimp only
  rw [shapeCast_self, shapeCast_self, shapeCast_self]
  rw [maximumf_apply, addf_apply, broadcastTo_1b_ab_apply]
  have hm : matmul dot_S256x64_S64x6_S256x6_1_0_0_1_n_n none (truncf .bf16 x0 bitsLt_bf16_f32) (truncf .bf16 x1 bitsLt_bf16_f32)
      (constant (F := Ideal) S256x6 .f32 0x00000000#32) = mm (M := 256) (K := 64) (N := 6) x0 x1 :=
    matmul_zero_eq_mm dot_S256x64_S64x6_S256x6_1_0_0_1_n_n rfl rfl rfl rfl rfl rfl none _ _
  rw [hm]
  rfl

/-- The printed index maps at the one grid point: every window's block is block (0, 0). -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- What the one point writes back is the (whole-array) block of `biasRelu (mm P W) b`. -/
theorem flushed_eq (c : Dev nD) (t : Fin cfg4.N) :
    (dat4 V c).flushed 3 t = ((cfg4.win 3).blk t).view.read (Elt Ideal)
      (biasRelu (M := 256) (N := 6) (mm (M := 256) (K := 64) (N := 6) (V c main_v82) (V c main_arg8)) (V c main_v83)) := by
  show (cfg4.win 3).cut (grid4.coords t) ((dat4 V c).after 3 t) = _
  rw [after4_3]
  unfold out4_3
  rw [View.canon_unit_zero hz]
  simp only [View.ld_unit_zero (S := S256x64) hz, View.ld_unit_zero (S := S64x6) hz, View.ld_unit_zero (S := S1x6) hz]
  obtain ⟨e00, e01, e10, e11, e20, e21, e30, e31⟩ := idx_facts t
  funext j
  obtain ⟨p, q, rfl⟩ : ∃ (p : Fin 256) (q : Fin 6), j = ix2 p q := ⟨j 0, j 1, eq_ix2 j⟩
  have hp : p.val < 256 := p.isLt
  have hq : q.val < 6 := q.isLt
  show k4_pay1 (iblk4 V c 0 t) (iblk4 V c 1 t) (iblk4 V c 2 t) (ix2 p q)
    = biasRelu (M := 256) (N := 6) (mm (M := 256) (K := 64) (N := 6) (V c main_v82) (V c main_arg8)) (V c main_v83)
        (((cfg4.win 3).blk t).view.emb (ix2 p q))
  rw [pay_apply]
  have he : ((cfg4.win 3).blk t).view.emb (ix2 p q) = ix2 (n0 := 256) (n1 := 6) p q := by
    funext a
    apply Fin.ext
    match a with
    | ⟨0, _⟩ => show win4_3.index t (0 : Fin 2) * 256 + 1 * p.val = p.val; omega
    | ⟨1, _⟩ => show win4_3.index t (1 : Fin 2) * 6 + 1 * q.val = q.val; omega
  rw [he, biasRelu_apply, mm_apply, mm_apply]
  have hA : ∀ k : Fin 64, iblk4 V c 0 t (ix2 p k) = V c main_v82 (ix2 (n0 := 256) (n1 := 64) p k) := fun k => by
    have hk : k.val < 64 := k.isLt
    unfold iblk4
    rw [View.read_apply]
    show V c main_v82 _ = V c main_v82 _
    refine congrArg (V c main_v82) (funext fun a => Fin.ext ?_)
    match a with
    | ⟨0, _⟩ => show win4_0.index t (0 : Fin 2) * 256 + 1 * p.val = p.val; omega
    | ⟨1, _⟩ => show win4_0.index t (1 : Fin 2) * 64 + 1 * k.val = k.val; omega
  have hB : ∀ k : Fin 64, iblk4 V c 1 t (ix2 k q) = V c main_arg8 (ix2 (n0 := 64) (n1 := 6) k q) := fun k => by
    have hk : k.val < 64 := k.isLt
    unfold iblk4
    rw [View.read_apply]
    show V c main_arg8 _ = V c main_arg8 _
    refine congrArg (V c main_arg8) (funext fun a => Fin.ext ?_)
    match a with
    | ⟨0, _⟩ => show win4_1.index t (0 : Fin 2) * 64 + 1 * k.val = k.val; omega
    | ⟨1, _⟩ => show win4_1.index t (1 : Fin 2) * 6 + 1 * q.val = q.val; omega
  have hC : iblk4 V c 2 t (ix2 (0 : Fin 1) q) = V c main_v83 (ix2 (n0 := 1) (n1 := 6) 0 q) := by
    unfold iblk4
    rw [View.read_apply]
    show V c main_v83 _ = V c main_v83 _
    refine congrArg (V c main_v83) (funext fun a => Fin.ext ?_)
    match a with
    | ⟨0, _⟩ => show win4_2.index t (0 : Fin 2) * 1 + 1 * 0 = 0; omega
    | ⟨1, _⟩ => show win4_2.index t (1 : Fin 2) * 6 + 1 * q.val = q.val; omega
  rw [hC, Finset.sum_congr rfl fun k _ => by rw [hA k, hB k]]

/-- An index of the output is in the one block iff each coordinate is in the block's range on its axis. -/
theorem mem_blk (t : Fin cfg4.N) (i : S256x6.Idx) :
    i ∈ ((cfg4.win 3).blk t).view.set ↔ ∀ a : Fin 2, win4_3.index t a * S256x6.size a ≤ (i a).val ∧ (i a).val < win4_3.index t a * S256x6.size a + S256x6.size a := by
  show i ∈ ((View.whole main_v84).slice (win4_3.rect t)).set ↔ _
  rw [View.set_slice_whole, Rect.mem_set_unit]
  exact Iff.rfl

/-- The one block is the whole output. -/
theorem cover (i : S256x6.Idx) : ∃ t : Fin cfg4.N, (cfg4.win 3).flush t = true ∧ i ∈ ((cfg4.win 3).blk t).view.set := by
  have hi0 : (i 0).val < 256 := (i 0).isLt
  have hi1 : (i 1).val < 6 := (i 1).isLt
  have hN : cfg4.N = 1 := N_4
  refine ⟨⟨0, by rw [hN]; omega⟩, flush4_3 _, ?_⟩
  rw [mem_blk]
  obtain ⟨-, -, -, -, -, -, e30, e31⟩ := idx_facts ⟨0, by rw [hN]; omega⟩
  intro a
  match a with
  | ⟨0, _⟩ =>
    show win4_3.index _ (0 : Fin 2) * 256 ≤ (i 0).val ∧ (i 0).val < win4_3.index _ (0 : Fin 2) * 256 + 256
    rw [e30]; omega
  | ⟨1, _⟩ =>
    show win4_3.index _ (1 : Fin 2) * 6 ≤ (i 1).val ∧ (i 1).val < win4_3.index _ (1 : Fin 2) * 6 + 6
    rw [e31]; omega

/-- After the region the output array is the clamped affine map of what the region found in P, W and the bias row. -/
theorem arr (c : Dev nD) :
    (dat4 V c).arrAt 3 cfg4.N
      = biasRelu (M := 256) (N := 6) (mm (M := 256) (K := 64) (N := 6) (V c main_v82) (V c main_arg8)) (V c main_v83) :=
  (dat4 V c).arrAt_eq_of_cover 3 _ (fun t _ => flushed_eq V c t) cover

end Cert.KernelIdeal.Region4

end
-- ==== Proof.HostHoles.lean ====
/-
  The host computations both programs share, as functions of what they read.

  Between the projections both programs run the same message passing: gather the rows of the projected features
  at the source nodes (a negative index wraps by the node count), scale each by the edge's normalisation,
  scatter-add into the target nodes over zeros (`agg128`, `agg64`); and before the output layer the same mean
  pooling: scatter-add the node features into their graphs and divide by the graph sizes clamped below at one
  (`pool`). They are stated here ONCE, over the values they read, in the reference's own operations; the
  reference's stages are these functions of the stages below (definitional), and the kernel program's host
  stretches are these functions of its buffers. Nothing in this file looks inside a gather or a scatter.
-/
import proofs.«139460_j24592982737431_1_alg».proof.Proof.RefRead

noncomputable section

namespace Cert.ReferenceIdeal.Holes

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- Edge endpoints as gather indices: a negative index wraps by the node count; one index per row. -/
def wrapIdx (idx : (⟨S700000, .i32⟩ : BufTy).Contents (Elt F)) : (⟨S700000x1, .i32⟩ : BufTy).Contents (Elt F) :=
  broadcastInDim S700000x1 ![0] bcast_S700000_S700000x1_0
    (select (cmpi .slt idx (broadcastInDim S700000 ![] bcast_S_S700000 (constantI S_ 32 0#32)))
      (addi idx (broadcastInDim S700000 ![] bcast_S_S700000 (constantI S_ 32 100000#32))) idx)

/-- Message passing over 128 features: rows of `h` at the sources, scaled per edge, summed into the targets. -/
def agg128 (h : (⟨S100000x128, .f32⟩ : BufTy).Contents (Elt F)) (row col : (⟨S700000, .i32⟩ : BufTy).Contents (Elt F)) (norm : (⟨S700000, .f32⟩ : BufTy).Contents (Elt F)) :
    (⟨S100000x128, .f32⟩ : BufTy).Contents (Elt F) :=
  Host.scatterAdd scatter_S100000x128_S700000x1_S700000x128_1_0_0_1
    (broadcastInDim S100000x128 ![] bcast_S_S100000x128 (constant (F := F) S_ .f32 0x00000000#32))
    (broadcastInDim S700000x1 ![0] bcast_S700000_S700000x1_0 col)
    (mulf (Host.gather gather_S100000x128_S700000x1_S700000x128_1_0_n_n_0_1_1128 h (wrapIdx (F := F) row))
      (broadcastInDim S700000x128 ![0, 1] bcast_S700000x1_S700000x128_0_1
        (broadcastInDim S700000x1 ![0] bcast_S700000_S700000x1_0 norm)))

/-- Message passing over 64 features. -/
def agg64 (h : (⟨S100000x64, .f32⟩ : BufTy).Contents (Elt F)) (row col : (⟨S700000, .i32⟩ : BufTy).Contents (Elt F)) (norm : (⟨S700000, .f32⟩ : BufTy).Contents (Elt F)) :
    (⟨S100000x64, .f32⟩ : BufTy).Contents (Elt F) :=
  Host.scatterAdd scatter_S100000x64_S700000x1_S700000x64_1_0_0_1
    (broadcastInDim S100000x64 ![] bcast_S_S100000x64 (constant (F := F) S_ .f32 0x00000000#32))
    (broadcastInDim S700000x1 ![0] bcast_S700000_S700000x1_0 col)
    (mulf (Host.gather gather_S100000x64_S700000x1_S700000x64_1_0_n_n_0_1_164 h (wrapIdx (F := F) row))
      (broadcastInDim S700000x64 ![0, 1] bcast_S700000x1_S700000x64_0_1
        (broadcastInDim S700000x1 ![0] bcast_S700000_S700000x1_0 norm)))

/-- Mean pooling of node features into graphs: per-graph sums over per-graph counts clamped below at one. -/
def pool (h : (⟨S100000x64, .f32⟩ : BufTy).Contents (Elt F)) (batch : (⟨S100000, .i32⟩ : BufTy).Contents (Elt F)) : (⟨S256x64, .f32⟩ : BufTy).Contents (Elt F) :=
  Host.divf
    (Host.scatterAdd scatter_S256x64_S100000x1_S100000x64_1_0_0_1
      (broadcastInDim S256x64 ![] bcast_S_S256x64 (constant (F := F) S_ .f32 0x00000000#32))
      (broadcastInDim S100000x1 ![0] bcast_S100000_S100000x1_0 batch) h)
    (broadcastInDim S256x64 ![0, 1] bcast_S256x1_S256x64_0_1
      (broadcastInDim S256x1 ![0] bcast_S256_S256x1_0
        (maximumf
          (Host.scatterAdd scatter_S256_S100000x1_S100000_n_0_0_1
            (broadcastInDim S256 ![] bcast_S_S256 (constant (F := F) S_ .f32 0x00000000#32))
            (broadcastInDim S100000x1 ![0] bcast_S100000_S100000x1_0 batch)
            (broadcastInDim S100000 ![] bcast_S_S100000 (constant (F := F) S_ .f32 0x3F800000#32)))
          (broadcastInDim S256 ![] bcast_S_S256 (constant (F := F) S_ .f32 0x3F800000#32)))))

/-- The reference's first aggregation is `agg128` of its first projection, edge lists and normalisation. -/
theorem v52_eq (x0 : (⟨S100000, .i32⟩ : BufTy).Contents (Elt F)) (x1 : (⟨S2x600000, .i32⟩ : BufTy).Contents (Elt F)) (x3 : (⟨S100000x300, .f32⟩ : BufTy).Contents (Elt F)) (x4 : (⟨S300x128, .f32⟩ : BufTy).Contents (Elt F)) :
    val_main_v52 (F := F) x0 x1 x3 x4
      = agg128 (val_main_v39 (F := F) x0 x3 x4) (val_main_v3 (F := F) x1) (val_main_v6 (F := F) x1) (val_main_v31 (F := F) x1) := rfl

/-- The reference's second aggregation is `agg64` of its second projection. -/
theorem v70_eq (x0 : (⟨S100000, .i32⟩ : BufTy).Contents (Elt F)) (x1 : (⟨S2x600000, .i32⟩ : BufTy).Contents (Elt F)) (x3 : (⟨S100000x300, .f32⟩ : BufTy).Contents (Elt F)) (x4 : (⟨S300x128, .f32⟩ : BufTy).Contents (Elt F)) (x5 : (⟨S128, .f32⟩ : BufTy).Contents (Elt F)) (x6 : (⟨S128x64, .f32⟩ : BufTy).Contents (Elt F)) :
    val_main_v70 (F := F) x0 x1 x3 x4 x5 x6
      = agg64 (val_main_v57 (F := F) x0 x1 x3 x4 x5 x6) (val_main_v3 (F := F) x1) (val_main_v6 (F := F) x1) (val_main_v31 (F := F) x1) := rfl

/-- The reference's pooled features are `pool` of its second layer's output and the graph assignment. -/
theorem v86_eq (x0 : (⟨S100000, .i32⟩ : BufTy).Contents (Elt F)) (x1 : (⟨S2x600000, .i32⟩ : BufTy).Contents (Elt F)) (x2 : (⟨S100000, .i32⟩ : BufTy).Contents (Elt F)) (x3 : (⟨S100000x300, .f32⟩ : BufTy).Contents (Elt F)) (x4 : (⟨S300x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) :
    val_main_v86 (F := F) x0 x1 x2 x3 x4 x5 x6 x7
      = pool (val_main_v74 (F := F) x0 x1 x3 x4 x5 x6 x7) x2 := rfl

end Cert.ReferenceIdeal.Holes

end
-- ==== Proof.HostK.lean ====
/-
  The kernel program's host stretches, read as the shared host functions of the buffers they find.

  Between region 0 and region 1 the host runs the first message passing and lays the bias b1 out as a row;
  between regions 2 and 3 the second message passing and the bias b2; between regions 3 and 4 the mean pooling
  and the bias bout. Before region 0 it builds the edge lists with self loops, the symmetric normalisation and
  the embedding lookup: the very operations of the reference, so those buffers hold the reference's stages of
  the same arguments. All of this holds for any float family.
-/
import proofs.«139460_j24592982737431_1_alg».proof.Proof.Gen.KernelIdeal.Launch
import proofs.«139460_j24592982737431_1_alg».proof.Proof.HostHoles
import Idealize.ShloMosaic.Lib.StableHlo.Run

set_option maxRecDepth 16384

noncomputable section

namespace Cert.KernelIdeal.HostK

open Cert.KernelIdeal Cert.KernelIdeal.Gen
open Idealize.ShloMosaic Idealize.ShloMosaic.TcCoe Idealize.SL.Sem Idealize.ShloMosaic.StableHlo

variable {F : FTy → Type} [FloatOps F]
variable (W : Valuation τ sig (Elt F))

/-! ## Between region 0 and region 1 -/

set_option maxHeartbeats 4000000 in
/-- The first aggregation, of whatever the stretch finds in the projected features, the edge lists and the
    normalisation. -/
theorem s1_v52 : StableHlo.after (hostOps1 (F := F)) W (Proc.devRef .tc main_v52)
    = Cert.ReferenceIdeal.Holes.agg128 (F := F) (W (Proc.devRef .tc main_v39)) (W (Proc.devRef .tc main_v3)) (W (Proc.devRef .tc main_v6)) (W (Proc.devRef .tc main_v31)) := by
  dsimp only [hostOps1]
  after_results
  rfl

/-- The bias b1 laid out as a row. -/
theorem s1_v53 : StableHlo.after (hostOps1 (F := F)) W (Proc.devRef .tc main_v53)
    = shapeCast S1x128 (W (Proc.devRef .tc main_arg5)) shapeCasts_S128_S1x128 := by
  dsimp only [hostOps1]
  after_results
  rfl

/-- The stretch writes none of the buffers read later. -/
theorem s1_keep (b : Ref sig .tc) (hb : b = main_v3 ∨ b = main_v6 ∨ b = main_v31 ∨ b = main_arg2 ∨ b = main_arg6 ∨ b = main_arg7 ∨ b = main_arg8 ∨ b = main_arg9) :
    StableHlo.after (hostOps1 (F := F)) W (Proc.devRef .tc b) = W (Proc.devRef .tc b) := by
  rcases hb with rfl | rfl | rfl | rfl | rfl | rfl | rfl | rfl <;>
  · dsimp only [hostOps1]
    after_results

/-! ## Between region 2 and region 3 -/

set_option maxHeartbeats 4000000 in
theorem s3_v68 : StableHlo.after (hostOps3 (F := F)) W (Proc.devRef .tc main_v68)
    = Cert.ReferenceIdeal.Holes.agg64 (F := F) (W (Proc.devRef .tc main_v55)) (W (Proc.devRef .tc main_v3)) (W (Proc.devRef .tc main_v6)) (W (Proc.devRef .tc main_v31)) := by
  dsimp only [hostOps3]
  after_results
  rfl

theorem s3_v69 : StableHlo.after (hostOps3 (F := F)) W (Proc.devRef .tc main_v69)
    = shapeCast S1x64 (W (Proc.devRef .tc main_arg7)) shapeCasts_S64_S1x64 := by
  dsimp only [hostOps3]
  after_results
  rfl

theorem s3_keep (b : Ref sig .tc) (hb : b = main_arg2 ∨ b = main_arg8 ∨ b = main_arg9) :
    StableHlo.after (hostOps3 (F := F)) W (Proc.devRef .tc b) = W (Proc.devRef .tc b) := by
  rcases hb with rfl | rfl | rfl <;>
  · dsimp only [hostOps3]
    after_results

/-! ## Between region 3 and region 4 -/

set_option maxHeartbeats 4000000 in
theorem s4_v82 : StableHlo.after (hostOps4 (F := F)) W (Proc.devRef .tc main_v82)
    = Cert.ReferenceIdeal.Holes.pool (F := F) (W (Proc.devRef .tc main_v70)) (W (Proc.devRef .tc main_arg2)) := by
  dsimp only [hostOps4]
  after_results
  rfl

theorem s4_v83 : StableHlo.after (hostOps4 (F := F)) W (Proc.devRef .tc main_v83)
    = shapeCast S1x6 (W (Proc.devRef .tc main_arg9)) shapeCasts_S6_S1x6 := by
  dsimp only [hostOps4]
  after_results
  rfl

theorem s4_keep : StableHlo.after (hostOps4 (F := F)) W (Proc.devRef .tc main_arg8) = W (Proc.devRef .tc main_arg8) := by
  dsimp only [hostOps4]
  after_results

end Cert.KernelIdeal.HostK

end
-- ==== Proof.HostPre.lean ====
/-
  The kernel program's host operations before region 0: the edge lists with self loops, the symmetric
  normalisation, the embedding lookup. They are the reference's own first operations, so from any contents the
  buffers end at the reference's stages of the same argument arrays; and no argument array is written.
  For any float family.
-/
import proofs.«139460_j24592982737431_1_alg».proof.Proof.Gen.KernelIdeal.Launch
import proofs.«139460_j24592982737431_1_alg».proof.Proof.RefRead
import Idealize.ShloMosaic.Lib.StableHlo.Run

set_option maxRecDepth 16384

noncomputable section

namespace Cert.KernelIdeal.HostPre

open Cert.KernelIdeal Cert.KernelIdeal.Gen
open Idealize.ShloMosaic Idealize.ShloMosaic.TcCoe Idealize.SL.Sem Idealize.ShloMosaic.StableHlo

variable {F : FTy → Type} [FloatOps F]
variable (W : Valuation τ sig (Elt F))

set_option maxHeartbeats 4000000 in
/-- The looked-up embeddings: the rows of the table at the node ids. -/
theorem v38 : StableHlo.after (hostOps0_2 (F := F)) (StableHlo.after (hostOps0_1 (F := F)) (StableHlo.after (hostOps0 (F := F)) W)) (Proc.devRef .tc main_v38)
    = Cert.ReferenceIdeal.ReadP.val_main_v38 (F := F) (W (Proc.devRef .tc main_arg0)) (W (Proc.devRef .tc main_arg3)) := by
  dsimp only [hostOps0, hostOps0_1, hostOps0_2]
  after_results
  rfl

/-- The source endpoints, self loops appended. -/
theorem v3 : StableHlo.after (hostOps0_2 (F := F)) (StableHlo.after (hostOps0_1 (F := F)) (StableHlo.after (hostOps0 (F := F)) W)) (Proc.devRef .tc main_v3) = Cert.ReferenceIdeal.ReadP.val_main_v3 (F := F) (W (Proc.devRef .tc main_arg1)) := by
  dsimp only [hostOps0, hostOps0_1, hostOps0_2]
  after_results
  rfl

/-- The target endpoints, self loops appended. -/
theorem v6 : StableHlo.after (hostOps0_2 (F := F)) (StableHlo.after (hostOps0_1 (F := F)) (StableHlo.after (hostOps0 (F := F)) W)) (Proc.devRef .tc main_v6) = Cert.ReferenceIdeal.ReadP.val_main_v6 (F := F) (W (Proc.devRef .tc main_arg1)) := by
  dsimp only [hostOps0, hostOps0_1, hostOps0_2]
  after_results
  rfl

set_option maxHeartbeats 4000000 in
/-- The per-edge normalisation: the inverse square roots of the two endpoints' degrees, multiplied. -/
theorem v31 : StableHlo.after (hostOps0_2 (F := F)) (StableHlo.after (hostOps0_1 (F := F)) (StableHlo.after (hostOps0 (F := F)) W)) (Proc.devRef .tc main_v31) = Cert.ReferenceIdeal.ReadP.val_main_v31 (F := F) (W (Proc.devRef .tc main_arg1)) := by
  dsimp only [hostOps0, hostOps0_1, hostOps0_2]
  after_results
  try simp only [TRef.ofBuf, TRef.toBuf, cast_eq]
  rfl

set_option maxHeartbeats 16000000 in
/-- No argument array read later is written. -/
theorem keep (b : Ref sig .tc) (hb : b = main_arg2 ∨ b = main_arg4 ∨ b = main_arg5 ∨ b = main_arg6 ∨ b = main_arg7 ∨ b = main_arg8 ∨ b = main_arg9) :
    StableHlo.after (hostOps0_2 (F := F)) (StableHlo.after (hostOps0_1 (F := F)) (StableHlo.after (hostOps0 (F := F)) W)) (Proc.devRef .tc b)
      = W (Proc.devRef .tc b) := by
  rcases hb with rfl | rfl | rfl | rfl | rfl | rfl | rfl <;>
  · dsimp only [hostOps0, hostOps0_1, hostOps0_2]
    after_results

end Cert.KernelIdeal.HostPre

end
-- ==== Proof.RefOps.lean ====
/-
  The reference's operator stages as the whole-array functions the kernel regions compute.

  Each `dot_general` of the reference is the matrix product `mm` of its operands, and each bias-add followed by
  ReLU (the bias broadcast first to one row, then down the rows; the ReLU a maximum with a broadcast zero) is
  `biasRelu` of the stage below and the bias as a row. The aggregation stages between them are not opened.
-/
import proofs.«139460_j24592982737431_1_alg».proof.Proof.RefRead
import proofs.«139460_j24592982737431_1_alg».proof.Proof.Spec
import proofs.«139460_j24592982737431_1_alg».proof.Proof.LibPlainDot

noncomputable section

namespace Cert.ReferenceIdeal.Ops

open Cert.ReferenceIdeal Cert.ReferenceIdeal.Gen Cert.ReferenceIdeal.ReadP
open Idealize.ShloMosaic Idealize.ShloMosaic.TcCoe Idealize.SL.Sem Idealize.ShloMosaic.ValueIdx
open Cert.Spec Cert.PlainDot

/-- The first projection: the gathered embeddings times W1. -/
theorem v39_eq (x0 : (⟨S100000, .i32⟩ : BufTy).Contents (Elt Ideal)) (x3 : (⟨S100000x300, .f32⟩ : BufTy).Contents (Elt Ideal)) (x4 : (⟨S300x128, .f32⟩ : BufTy).Contents (Elt Ideal)) :
    val_main_v39 (F := Ideal) x0 x3 x4 = mm (M := 100000) (K := 300) (N := 128) (val_main_v38 (F := Ideal) x0 x3) x4 := by
  unfold val_main_v39
  exact dotGeneral_eq_mm dot_S100000x300_S300x128_S100000x128_1_0_0_1_n_n rfl rfl rfl rfl rfl rfl none .single _ _

/-- Bias b1 and ReLU over the first aggregation. -/
theorem v56_eq (x0 : (⟨S100000, .i32⟩ : BufTy).Contents (Elt Ideal)) (x1 : (⟨S2x600000, .i32⟩ : BufTy).Contents (Elt Ideal)) (x3 : (⟨S100000x300, .f32⟩ : BufTy).Contents (Elt Ideal)) (x4 : (⟨S300x128, .f32⟩ : BufTy).Contents (Elt Ideal)) (x5 : (⟨S128, .f32⟩ : BufTy).Contents (Elt Ideal)) :
    val_main_v56 (F := Ideal) x0 x1 x3 x4 x5
      = biasRelu (M := 100000) (N := 128) (val_main_v52 (F := Ideal) x0 x1 x3 x4) (rowOf (N := 128) x5) := by
  funext i
  obtain ⟨p, q, rfl⟩ : ∃ (p : Fin 100000) (q : Fin 128), i = ix2 p q := ⟨i 0, i 1, eq_ix2 i⟩
  rw [val_main_v56_apply, val_main_v55_apply, val_main_v54_apply, val_main_v53_apply, val_main_call1_v0_apply, val_main_call1_cst_apply]
  have hi : idx_main_v53 (idx_main_v54 (ix2 p q)) = ix1 (n := 128) q := funext fun a => by
    match a with
    | ⟨0, _⟩ => rfl
  rw [hi]
  rfl

/-- The second projection: the first layer's output times W2. -/
theorem v57_eq (x0 : (⟨S100000, .i32⟩ : BufTy).Contents (Elt Ideal)) (x1 : (⟨S2x600000, .i32⟩ : BufTy).Contents (Elt Ideal)) (x3 : (⟨S100000x300, .f32⟩ : BufTy).Contents (Elt Ideal)) (x4 : (⟨S300x128, .f32⟩ : BufTy).Contents (Elt Ideal)) (x5 : (⟨S128, .f32⟩ : BufTy).Contents (Elt Ideal)) (x6 : (⟨S128x64, .f32⟩ : BufTy).Contents (Elt Ideal)) :
    val_main_v57 (F := Ideal) x0 x1 x3 x4 x5 x6
      = mm (M := 100000) (K := 128) (N := 64) (val_main_v56 (F := Ideal) x0 x1 x3 x4 x5) x6 := by
  unfold val_main_v57
  exact dotGeneral_eq_mm dot_S100000x128_S128x64_S100000x64_1_0_0_1_n_n rfl rfl rfl rfl rfl rfl none .single _ _

/-- Bias b2 and ReLU over the second aggregation. -/
theorem v74_eq (x0 : (⟨S100000, .i32⟩ : BufTy).Contents (Elt Ideal)) (x1 : (⟨S2x600000, .i32⟩ : BufTy).Contents (Elt Ideal)) (x3 : (⟨S100000x300, .f32⟩ : BufTy).Contents (Elt Ideal)) (x4 : (⟨S300x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) :
    val_main_v74 (F := Ideal) x0 x1 x3 x4 x5 x6 x7
      = biasRelu (M := 100000) (N := 64) (val_main_v70 (F := Ideal) x0 x1 x3 x4 x5 x6) (rowOf (N := 64) x7) := by
  funext i
  obtain ⟨p, q, rfl⟩ : ∃ (p : Fin 100000) (q : Fin 64), i = ix2 p q := ⟨i 0, i 1, eq_ix2 i⟩
  rw [val_main_v74_apply, val_main_v73_apply, val_main_v72_apply, val_main_v71_apply, val_main_call2_v0_apply, val_main_call2_cst_apply]
  have hi : idx_main_v71 (idx_main_v72 (ix2 p q)) = ix1 (n := 64) q := funext fun a => by
    match a with
    | ⟨0, _⟩ => rfl
  rw [hi]
  rfl

/-- The output layer: the pooled features times Wout, bias bout, ReLU. -/
theorem v91_eq (x0 : (⟨S100000, .i32⟩ : BufTy).Contents (Elt Ideal)) (x1 : (⟨S2x600000, .i32⟩ : BufTy).Contents (Elt Ideal)) (x2 : (⟨S100000, .i32⟩ : BufTy).Contents (Elt Ideal)) (x3 : (⟨S100000x300, .f32⟩ : BufTy).Contents (Elt Ideal)) (x4 : (⟨S300x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x6, .f32⟩ : BufTy).Contents (Elt Ideal)) (x9 : (⟨S6, .f32⟩ : BufTy).Contents (Elt Ideal)) :
    val_main_v91 (F := Ideal) x0 x1 x2 x3 x4 x5 x6 x7 x8 x9
      = biasRelu (M := 256) (N := 6) (mm (M := 256) (K := 64) (N := 6) (val_main_v86 (F := Ideal) x0 x1 x2 x3 x4 x5 x6 x7) x8) (rowOf (N := 6) x9) := by
  have h87 : val_main_v87 (F := Ideal) x0 x1 x2 x3 x4 x5 x6 x7 x8
      = mm (M := 256) (K := 64) (N := 6) (val_main_v86 (F := Ideal) x0 x1 x2 x3 x4 x5 x6 x7) x8 := by
    unfold val_main_v87
    exact dotGeneral_eq_mm dot_S256x64_S64x6_S256x6_1_0_0_1_n_n rfl rfl rfl rfl rfl rfl none .single _ _
  funext i
  obtain ⟨p, q, rfl⟩ : ∃ (p : Fin 256) (q : Fin 6), i = ix2 p q := ⟨i 0, i 1, eq_ix2 i⟩
  rw [val_main_v91_apply, val_main_v90_apply, val_main_v89_apply, val_main_v88_apply, val_main_call3_v0_apply, val_main_call3_cst_apply, h87]
  have hi : idx_main_v88 (idx_main_v89 (ix2 p q)) = ix1 (n := 6) q := funext fun a => by
    match a with
    | ⟨0, _⟩ => rfl
  rw [hi]
  rfl

end Cert.ReferenceIdeal.Ops

end
-- ==== Proof.Chain.lean ====
/-
  The kernel program's buffers at each boundary of @main, followed from the launch to the return.

  Boundary by boundary the buffers the next item reads hold the reference's stages of the same argument arrays:
  before region 0 the embedding lookup, the edge lists and the normalisation (the same host operations); after
  region 0 the first projection (the row-tiled product is the whole product); after the next host stretch the
  first aggregation (the same message passing); after region 1 the first layer's output (bias and clamp, row
  block by row block); after region 2 the second projection; then the second aggregation, the second layer's
  output, the pooled features, and after region 4 the output layer — the reference's result.
  No item writes a buffer a later item still reads, so each value is carried to where it is read.
-/
import proofs.«139460_j24592982737431_1_alg».proof.Proof.Gen.KernelIdeal.Frame
import proofs.«139460_j24592982737431_1_alg».proof.Proof.Region0
import proofs.«139460_j24592982737431_1_alg».proof.Proof.Region1
import proofs.«139460_j24592982737431_1_alg».proof.Proof.Region2
import proofs.«139460_j24592982737431_1_alg».proof.Proof.Region3
import proofs.«139460_j24592982737431_1_alg».proof.Proof.Region4
import proofs.«139460_j24592982737431_1_alg».proof.Proof.HostK
import proofs.«139460_j24592982737431_1_alg».proof.Proof.HostPre
import proofs.«139460_j24592982737431_1_alg».proof.Proof.RefOps

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.ValueIdx
open Cert.Spec Cert.PlainDot
open Cert.ReferenceIdeal.ReadP (val_main_v3 val_main_v6 val_main_v31 val_main_v38 val_main_v39 val_main_v52 val_main_v56 val_main_v57 val_main_v70 val_main_v74 val_main_v86 val_main_v91)

variable (m : (ℓ : Loc nD τ sig) → Buf (Elt Ideal) ℓ) (ρ : Dev nD → PrngReg) (c : Dev nD)

/-- Argument 0 as launched. -/
abbrev a0 : (⟨Cert.ReferenceIdeal.S100000, .i32⟩ : BufTy).Contents (Elt Ideal) := m ((c : Thread nD τ).loc main_arg0)
/-- Argument 1 as launched. -/
abbrev a1 : (⟨Cert.ReferenceIdeal.S2x600000, .i32⟩ : BufTy).Contents (Elt Ideal) := m ((c : Thread nD τ).loc main_arg1)
/-- Argument 2 as launched. -/
abbrev a2 : (⟨Cert.ReferenceIdeal.S100000, .i32⟩ : BufTy).Contents (Elt Ideal) := m ((c : Thread nD τ).loc main_arg2)
/-- Argument 3 as launched. -/
abbrev a3 : (⟨Cert.ReferenceIdeal.S100000x300, .f32⟩ : BufTy).Contents (Elt Ideal) := m ((c : Thread nD τ).loc main_arg3)
/-- Argument 4 as launched. -/
abbrev a4 : (⟨Cert.ReferenceIdeal.S300x128, .f32⟩ : BufTy).Contents (Elt Ideal) := m ((c : Thread nD τ).loc main_arg4)
/-- Argument 5 as launched. -/
abbrev a5 : (⟨Cert.ReferenceIdeal.S128, .f32⟩ : BufTy).Contents (Elt Ideal) := m ((c : Thread nD τ).loc main_arg5)
/-- Argument 6 as launched. -/
abbrev a6 : (⟨Cert.ReferenceIdeal.S128x64, .f32⟩ : BufTy).Contents (Elt Ideal) := m ((c : Thread nD τ).loc main_arg6)
/-- Argument 7 as launched. -/
abbrev a7 : (⟨Cert.ReferenceIdeal.S64, .f32⟩ : BufTy).Contents (Elt Ideal) := m ((c : Thread nD τ).loc main_arg7)
/-- Argument 8 as launched. -/
abbrev a8 : (⟨Cert.ReferenceIdeal.S64x6, .f32⟩ : BufTy).Contents (Elt Ideal) := m ((c : Thread nD τ).loc main_arg8)
/-- Argument 9 as launched. -/
abbrev a9 : (⟨Cert.ReferenceIdeal.S6, .f32⟩ : BufTy).Contents (Elt Ideal) := m ((c : Thread nD τ).loc main_arg9)

/-- A vector reshaped to one row is that vector laid out as a row. -/
theorem shapeCast_row {N : Nat} (b : (⟨1, ![N]⟩ : Shape).Idx → EReal) (h : (⟨1, ![N]⟩ : Shape).ShapeCasts ⟨2, ![1, N]⟩) :
    shapeCast ⟨2, ![1, N]⟩ b h = rowOf b := by
  funext j
  refine (shapeCast_addUnit_apply (n := 1) ![N] b h j).trans ?_
  show b (fun a => j a.succ) = b (ix1 (n := N) (j 1))
  refine congrArg b (funext fun a => ?_)
  match a with
  | ⟨0, _⟩ => rfl

/-! ## The argument arrays, carried to where they are read -/

theorem L3 (b : Ref sig .tc) (hb : b = main_arg2 ∨ b = main_arg4 ∨ b = main_arg5 ∨ b = main_arg6 ∨ b = main_arg7 ∨ b = main_arg8 ∨ b = main_arg9) :
    W3 m ρ c (Proc.devRef .tc b) = m ((c : Thread nD τ).loc b) :=
  HostPre.keep (F := Ideal) (W0 m ρ c) b hb

theorem L4 (b : Ref sig .tc) (hb : b = main_arg2 ∨ b = main_arg5 ∨ b = main_arg6 ∨ b = main_arg7 ∨ b = main_arg8 ∨ b = main_arg9) :
    W4 m ρ c (Proc.devRef .tc b) = m ((c : Thread nD τ).loc b) := by
  rcases hb with rfl | rfl | rfl | rfl | rfl | rfl <;>
  exact (W4_of_ne m ρ c _ (by decide)).trans (L3 m ρ c _ (by simp))

theorem L5 (b : Ref sig .tc) (hb : b = main_arg2 ∨ b = main_arg6 ∨ b = main_arg7 ∨ b = main_arg8 ∨ b = main_arg9) :
    W5 m ρ c (Proc.devRef .tc b) = m ((c : Thread nD τ).loc b) := by
  rcases hb with rfl | rfl | rfl | rfl | rfl <;>
  exact (HostK.s1_keep (F := Ideal) (W4 m ρ c) _ (by simp)).trans (L4 m ρ c _ (by simp))

theorem L6 (b : Ref sig .tc) (hb : b = main_arg2 ∨ b = main_arg6 ∨ b = main_arg7 ∨ b = main_arg8 ∨ b = main_arg9) :
    W6 m ρ c (Proc.devRef .tc b) = m ((c : Thread nD τ).loc b) := by
  rcases hb with rfl | rfl | rfl | rfl | rfl <;>
  exact (W6_of_ne m ρ c _ (by decide)).trans (L5 m ρ c _ (by simp))

theorem L7 (b : Ref sig .tc) (hb : b = main_arg2 ∨ b = main_arg7 ∨ b = main_arg8 ∨ b = main_arg9) :
    W7 m ρ c (Proc.devRef .tc b) = m ((c : Thread nD τ).loc b) := by
  rcases hb with rfl | rfl | rfl | rfl <;>
  exact (W7_of_ne m ρ c _ (by decide)).trans (L6 m ρ c _ (by simp))

theorem L8 (b : Ref sig .tc) (hb : b = main_arg2 ∨ b = main_arg8 ∨ b = main_arg9) :
    W8 m ρ c (Proc.devRef .tc b) = m ((c : Thread nD τ).loc b) := by
  rcases hb with rfl | rfl | rfl <;>
  exact (HostK.s3_keep (F := Ideal) (W7 m ρ c) _ (by simp)).trans (L7 m ρ c _ (by simp))

theorem L9 (b : Ref sig .tc) (hb : b = main_arg2 ∨ b = main_arg8 ∨ b = main_arg9) :
    W9 m ρ c (Proc.devRef .tc b) = m ((c : Thread nD τ).loc b) := by
  rcases hb with rfl | rfl | rfl <;>
  exact (W9_of_ne m ρ c _ (by decide)).trans (L8 m ρ c _ (by simp))

theorem L10 : W10 m ρ c (Proc.devRef .tc main_arg8) = m ((c : Thread nD τ).loc main_arg8) :=
  (HostK.s4_keep (F := Ideal) (W9 m ρ c)).trans (L9 m ρ c _ (by simp))

/-! ## The edge lists and the normalisation, carried to the two message passings -/

theorem row3 : W3 m ρ c (Proc.devRef .tc main_v3) = val_main_v3 (F := Ideal) (a1 m c) := HostPre.v3 (F := Ideal) (W0 m ρ c)
theorem col3 : W3 m ρ c (Proc.devRef .tc main_v6) = val_main_v6 (F := Ideal) (a1 m c) := HostPre.v6 (F := Ideal) (W0 m ρ c)
theorem nrm3 : W3 m ρ c (Proc.devRef .tc main_v31) = val_main_v31 (F := Ideal) (a1 m c) := HostPre.v31 (F := Ideal) (W0 m ρ c)

theorem row4 : W4 m ρ c (Proc.devRef .tc main_v3) = val_main_v3 (F := Ideal) (a1 m c) := (W4_of_ne m ρ c _ (by decide)).trans (row3 m ρ c)
theorem col4 : W4 m ρ c (Proc.devRef .tc main_v6) = val_main_v6 (F := Ideal) (a1 m c) := (W4_of_ne m ρ c _ (by decide)).trans (col3 m ρ c)
theorem nrm4 : W4 m ρ c (Proc.devRef .tc main_v31) = val_main_v31 (F := Ideal) (a1 m c) := (W4_of_ne m ρ c _ (by decide)).trans (nrm3 m ρ c)

theorem row7 : W7 m ρ c (Proc.devRef .tc main_v3) = val_main_v3 (F := Ideal) (a1 m c) :=
  (W7_of_ne m ρ c _ (by decide)).trans ((W6_of_ne m ρ c _ (by decide)).trans
    ((HostK.s1_keep (F := Ideal) (W4 m ρ c) _ (by simp)).trans (row4 m ρ c)))
theorem col7 : W7 m ρ c (Proc.devRef .tc main_v6) = val_main_v6 (F := Ideal) (a1 m c) :=
  (W7_of_ne m ρ c _ (by decide)).trans ((W6_of_ne m ρ c _ (by decide)).trans
    ((HostK.s1_keep (F := Ideal) (W4 m ρ c) _ (by simp)).trans (col4 m ρ c)))
theorem nrm7 : W7 m ρ c (Proc.devRef .tc main_v31) = val_main_v31 (F := Ideal) (a1 m c) :=
  (W7_of_ne m ρ c _ (by decide)).trans ((W6_of_ne m ρ c _ (by decide)).trans
    ((HostK.s1_keep (F := Ideal) (W4 m ρ c) _ (by simp)).trans (nrm4 m ρ c)))

/-! ## The stages, boundary by boundary -/

/-- Before region 0: the looked-up embeddings. -/
theorem emb3 : W3 m ρ c (Proc.devRef .tc main_v38) = val_main_v38 (F := Ideal) (a0 m c) (a3 m c) :=
  HostPre.v38 (F := Ideal) (W0 m ρ c)

/-- After region 0: the first projection. -/
theorem lin1 : W4 m ρ c (Proc.devRef .tc main_v39) = val_main_v39 (F := Ideal) (a0 m c) (a3 m c) (a4 m c) := by
  refine (W4_arr m ρ c 2).trans ?_
  rw [Region0.arr (V3 m ρ) c]
  show mm (W3 m ρ c (Proc.devRef .tc main_v38)) (W3 m ρ c (Proc.devRef .tc main_arg4)) = _
  rw [emb3, L3 m ρ c main_arg4 (by simp)]
  exact (Cert.ReferenceIdeal.Ops.v39_eq _ _ _).symm

/-- After the first message passing: the first aggregation, and the bias b1 as a row. -/
theorem agg1 : W5 m ρ c (Proc.devRef .tc main_v52) = val_main_v52 (F := Ideal) (a0 m c) (a1 m c) (a3 m c) (a4 m c) := by
  refine (HostK.s1_v52 (F := Ideal) (W4 m ρ c)).trans ?_
  rw [lin1, row4, col4, nrm4]
  exact (Cert.ReferenceIdeal.Holes.v52_eq (F := Ideal) _ _ _ _).symm

theorem bias1 : W5 m ρ c (Proc.devRef .tc main_v53) = rowOf (N := 128) (a5 m c) := by
  refine (HostK.s1_v53 (F := Ideal) (W4 m ρ c)).trans ?_
  rw [L4 m ρ c main_arg5 (by simp)]
  exact shapeCast_row (N := 128) _ _

/-- After region 1: the first layer's output. -/
theorem out1 : W6 m ρ c (Proc.devRef .tc main_v54) = val_main_v56 (F := Ideal) (a0 m c) (a1 m c) (a3 m c) (a4 m c) (a5 m c) := by
  refine (W6_arr m ρ c 2).trans ?_
  rw [Region1.arr (V5 m ρ) c]
  show biasRelu (W5 m ρ c (Proc.devRef .tc main_v52)) (W5 m ρ c (Proc.devRef .tc main_v53)) = _
  rw [agg1, bias1]
  exact (Cert.ReferenceIdeal.Ops.v56_eq _ _ _ _ _).symm

/-- After region 2: the second projection. -/
theorem lin2 : W7 m ρ c (Proc.devRef .tc main_v55) = val_main_v57 (F := Ideal) (a0 m c) (a1 m c) (a3 m c) (a4 m c) (a5 m c) (a6 m c) := by
  refine (W7_arr m ρ c 2).trans ?_
  rw [Region2.arr (V6 m ρ) c]
  show mm (W6 m ρ c (Proc.devRef .tc main_v54)) (W6 m ρ c (Proc.devRef .tc main_arg6)) = _
  rw [out1, L6 m ρ c main_arg6 (by simp)]
  exact (Cert.ReferenceIdeal.Ops.v57_eq _ _ _ _ _ _).symm

/-- After the second message passing: the second aggregation, and the bias b2 as a row. -/
theorem agg2 : W8 m ρ c (Proc.devRef .tc main_v68) = val_main_v70 (F := Ideal) (a0 m c) (a1 m c) (a3 m c) (a4 m c) (a5 m c) (a6 m c) := by
  refine (HostK.s3_v68 (F := Ideal) (W7 m ρ c)).trans ?_
  rw [lin2, row7, col7, nrm7]
  exact (Cert.ReferenceIdeal.Holes.v70_eq (F := Ideal) _ _ _ _ _ _).symm

theorem bias2 : W8 m ρ c (Proc.devRef .tc main_v69) = rowOf (N := 64) (a7 m c) := by
  refine (HostK.s3_v69 (F := Ideal) (W7 m ρ c)).trans ?_
  rw [L7 m ρ c main_arg7 (by simp)]
  exact shapeCast_row (N := 64) _ _

/-- After region 3: the second layer's output. -/
theorem out2 : W9 m ρ c (Proc.devRef .tc main_v70) = val_main_v74 (F := Ideal) (a0 m c) (a1 m c) (a3 m c) (a4 m c) (a5 m c) (a6 m c) (a7 m c) := by
  refine (W9_arr m ρ c 2).trans ?_
  rw [Region3.arr (V8 m ρ) c]
  show biasRelu (W8 m ρ c (Proc.devRef .tc main_v68)) (W8 m ρ c (Proc.devRef .tc main_v69)) = _
  rw [agg2, bias2]
  exact (Cert.ReferenceIdeal.Ops.v74_eq _ _ _ _ _ _ _).symm

/-- After the pooling: the pooled features, and the bias bout as a row. -/
theorem pooled : W10 m ρ c (Proc.devRef .tc main_v82) = val_main_v86 (F := Ideal) (a0 m c) (a1 m c) (a2 m c) (a3 m c) (a4 m c) (a5 m c) (a6 m c) (a7 m c) := by
  refine (HostK.s4_v82 (F := Ideal) (W9 m ρ c)).trans ?_
  rw [out2, L9 m ρ c main_arg2 (by simp)]
  exact (Cert.ReferenceIdeal.Holes.v86_eq (F := Ideal) _ _ _ _ _ _ _ _).symm

theorem bias3 : W10 m ρ c (Proc.devRef .tc main_v83) = rowOf (N := 6) (a9 m c) := by
  refine (HostK.s4_v83 (F := Ideal) (W9 m ρ c)).trans ?_
  rw [L9 m ρ c main_arg9 (by simp)]
  exact shapeCast_row (N := 6) _ _

/-- After region 4: the result buffer holds the reference's last stage of the argument arrays. -/
theorem result : W11 m ρ c (Proc.devRef .tc main_v84) = val_main_v91 (F := Ideal) (a0 m c) (a1 m c) (a2 m c) (a3 m c) (a4 m c) (a5 m c) (a6 m c) (a7 m c) (a8 m c) (a9 m c) := by
  refine (W11_arr m ρ c 3).trans ?_
  rw [Region4.arr (V10 m ρ) c]
  show biasRelu (mm (W10 m ρ c (Proc.devRef .tc main_v82)) (W10 m ρ c (Proc.devRef .tc main_arg8))) (W10 m ρ c (Proc.devRef .tc main_v83)) = _
  rw [pooled, L10, bias3]
  exact (Cert.ReferenceIdeal.Ops.v91_eq _ _ _ _ _ _ _ _ _ _).symm

end Cert.KernelIdeal.Chain

end
-- ==== Proof.lean ====
/-
  A two-layer graph convolutional network with mean pooling and a linear output layer, against its plain
  array-language reference, over the extended reals.

  Both programs compute, from node ids x, an edge list, a graph assignment, an embedding table and the weights,

      H0  = emb[x]
      H1  = relu (A (H0 W1) + b1)          A = the normalised adjacency with self loops, applied as
      H2  = relu (A (H1 W2) + b2)              gather at the sources, scale per edge, scatter-add at the targets
      out = relu (meanpool (H2) Wout + bout).

  The kernel program runs the three matrix products and the three bias-and-clamp steps as five tiled kernel
  regions (the products and the first two bias steps in twenty blocks of 5000 rows, the output layer in one
  block) and everything else as the reference's own host operations.

  * A row block of a product is the product of that row block, a bias-and-clamp is pointwise in the row, and
    the row blocks tile their arrays: each region leaves in its output the whole-array function `mm` or
    `biasRelu` of what it found in its inputs (Region0 … Region4).
  * The reference's `dot_general`s and its bias / ReLU stages are the same two functions (RefOps, over the one
    lemma on plain contractions in LibPlainDot).
  * The host stretches between the regions are the reference's own operations, read as one function of the
    buffers they find (HostHoles, HostK, HostPre).
  * So, boundary by boundary, the kernel program's buffers hold the reference's stages of the same arguments,
    and its result buffer the reference's result (Chain).

  No law beyond associativity and commutativity of the sums is used, so the finiteness of the inputs is never
  opened. The ideal pass rewrote nothing, so the kernel program read over the extended reals is its own
  idealization.
-/
import proofs.«139460_j24592982737431_1_alg».proof.Defs
import proofs.«139460_j24592982737431_1_alg».proof.Proof.Gen.Kernel
import proofs.«139460_j24592982737431_1_alg».proof.Proof.Gen.Kernel.Skeleton
import proofs.«139460_j24592982737431_1_alg».proof.Proof.Gen.Kernel.Launch
import proofs.«139460_j24592982737431_1_alg».proof.Proof.Gen.Kernel.Points
import proofs.«139460_j24592982737431_1_alg».proof.Proof.Gen.Kernel.Frame
import proofs.«139460_j24592982737431_1_alg».proof.Proof.Gen.KernelIdeal
import proofs.«139460_j24592982737431_1_alg».proof.Proof.Gen.KernelIdeal.Skeleton
import proofs.«139460_j24592982737431_1_alg».proof.Proof.Gen.KernelIdeal.Launch
import proofs.«139460_j24592982737431_1_alg».proof.Proof.Gen.KernelIdeal.Points
import proofs.«139460_j24592982737431_1_alg».proof.Proof.Gen.KernelIdeal.Frame
import proofs.«139460_j24592982737431_1_alg».proof.Proof.Gen.ReferenceIdeal
import proofs.«139460_j24592982737431_1_alg».proof.Proof.Gen.Pre_finite_inputs
import proofs.«139460_j24592982737431_1_alg».proof.Proof.KRun
import proofs.«139460_j24592982737431_1_alg».proof.Proof.RefRead
import proofs.«139460_j24592982737431_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- From memories that agree on the arguments both programs end with the same result: the kernel program's
    result buffer holds the reference's last stage of the kernel's arguments, the reference's result is that
    stage of its own arguments, and the arguments agree. -/
theorem algebraic : Cert.algebraic_KernelIdeal_ReferenceIdeal := by
  intro m ρ m' ρ' _ hagree
  refine ⟨fun c => Cert.KernelIdeal.Gen.W11 m ρ c (Proc.devRef .tc Cert.KernelIdeal.main_v84),
    Cert.KernelIdeal.Run.run_main (F := Ideal) m ρ, ?_⟩
  refine (θ_run Cert.ReferenceIdeal.defs _ _).mono (fun _ h c => ⟨(h c).1.trans ?_, (h c).2⟩)
    (Cert.ReferenceIdeal.RunP.run (F := Ideal) m' ρ')
  show Cert.ReferenceIdeal.RunP.res_main_v91 m' c
    = Cert.KernelIdeal.Gen.W11 m ρ c (Proc.devRef .tc Cert.KernelIdeal.main_v84)
  obtain ⟨h0, h1, h2, h3, h4, h5, h6, h7, h8, h9⟩ := hagree c
  rw [Cert.ReferenceIdeal.ReadP.val_main_v91_eq, Cert.KernelIdeal.Chain.result m ρ c, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
